-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x256 .f32) (main_arg1 : IVec S1600000 32) (main_arg2 : IVec S1600000 32) (main_arg3 : FVec F S256x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S10000x256 : Shape := ⟨2, ![10000, 256]⟩
abbrev S10000x1 : Shape := ⟨2, ![10000, 1]⟩
abbrev S10000x128 : Shape := ⟨2, ![10000, 128]⟩
abbrev S1600000x128 : Shape := ⟨2, ![1600000, 128]⟩
abbrev S1x128 : Shape := ⟨2, ![1, 128]⟩
abbrev S1x40 : Shape := ⟨2, ![1, 40]⟩
abbrev S100000x40 : Shape := ⟨2, ![100000, 40]⟩
abbrev S10000x40 : Shape := ⟨2, ![10000, 40]⟩

abbrev nBuf : Space → Nat
  | .hbm => 68
  | .vmem => 34
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S100000x256, .bf16⟩
  | .hbm, ⟨30, _⟩ => ⟨S256x128, .bf16⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .bf16⟩
  | .hbm, ⟨48, _⟩ => ⟨S128x128, .bf16⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S128x40, .bf16⟩
  | .hbm, ⟨66, _⟩ => ⟨S1x40, .f32⟩
  | .hbm, ⟨67, _⟩ => ⟨S100000x40, .f32⟩
  | .local _ .vmem, ⟨0, _⟩ => ⟨S10000x256, .bf16⟩
  | .local _ .vmem, ⟨1, _⟩ => ⟨S10000x256, .bf16⟩
  | .local _ .vmem, ⟨2, _⟩ => ⟨S256x128, .bf16⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .bf16⟩
  | .local _ .vmem, ⟨15, _⟩ => ⟨S10000x128, .bf16⟩
  | .local _ .vmem, ⟨16, _⟩ => ⟨S128x128, .bf16⟩
  | .local _ .vmem, ⟨17, _⟩ => ⟨S10000x1, .f32⟩
  | .local _ .vmem, ⟨18, _⟩ => ⟨S10000x1, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x40, .bf16⟩
  | .local _ .vmem, ⟨31, _⟩ => ⟨S1x40, .f32⟩
  | .local _ .vmem, ⟨32, _⟩ => ⟨S10000x40, .f32⟩
  | .local _ .vmem, ⟨33, _⟩ => ⟨S10000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S10000x128_S10000x128_0_0 : ∀ a, (![0, 0] : Fin 2 → Nat) a + S10000x128.size a ≤ S10000x128.size a
  h_S10000x128 : 0 < S10000x128.numel
  bcast_S_S100000x128 : S_.BroadcastsInDim S100000x128 (![] : Fin 0 → Fin S100000x128.rank)
  bcast_S128_S1x128_1 : S128.BroadcastsInDim S1x128 (![1] : Fin 1 → Fin S1x128.rank)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S40_S1x40_1 : S40.BroadcastsInDim S1x40 (![1] : Fin 1 → Fin S1x40.rank)
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  scatter_S100000_S1600000x1_S1600000_n_0_0_1_wf : ScatterDims.WF S100000 S1600000x1 S1600000 [] [0] [0] 1
  dot_S10000x256_S256x128_S10000x128_1_0_0_1_n_n_wf : DotDims.WF S10000x256 S256x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x40_S10000x40_1_0_0_1_n_n_wf : DotDims.WF S10000x128 S128x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .bf16 = 32 ∨ (Rect.block (s := S100000x256) S10000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .bf16 = 32 ∨ (Rect.block (s := S100000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .bf16 = 32 ∨ (Rect.block (s := S128x40) S128x40.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x40.size a ≤ S100000x40.size a
  hwx4_3 : ∀ i : grid4.Coords, EltTy.bits .f32 = 32 ∨ (Rect.block (s := S100000x40) S10000x40.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

abbrev win0_0 : Pipeline.Window sig grid0 :=
  Pipeline.Window.ofSpec (Memref.whole main_v15) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v44) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v47) S10000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 83
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x40, .f32⟩
  | .hbm, ⟨80, _⟩ => ⟨S1x40, .f32⟩
  | .hbm, ⟨81, _⟩ => ⟨S100000x40, .f32⟩
  | .hbm, ⟨82, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  The dense stages of a two-layer graph convolution with a linear classifier, as functions of whole arrays over the
  extended reals, entry by entry.

  Four pieces compose every dense stage of the network. For matrices `x` ([n × K]) and `w` ([K × M]):
  `matProd x w` has entry (p, q) equal to `∑ₖ x[p, k] · w[k, q]`; `scaleRows a s` multiplies row p of `a` by the one
  entry `s[p, 0]` of a column (a degree normalisation); `addRow a b` adds the row vector `b[0, ·]` to every row (a
  bias); `rectify v` is the entrywise maximum with zero (the rectifier). A graph-convolution layer is
  `addRow (scaleRows (aggregate (scaleRows (matProd h w) cSrc)) cDst) b`, and the classifier is
  `addRow (matProd (rectify h) w) b`.

  The second half says that a host program's spelling of each piece is the piece: a `dot_general` contracting the left
  operand's columns with the right operand's rows, a product with a column broadcast along rows, a sum with a row
  broadcast along columns, and a maximum with a broadcast zero. No law of the extended reals is used beyond reading
  each operation at an index, so nothing here asks that the entries be finite.
-/
import Idealize.ShloMosaic.PureOps.Ideal.Laws
import Idealize.ShloMosaic.Lib.ValueIdx
import Idealize.ShloMosaic.Lib.Pipeline.Value

noncomputable section

namespace Cert.GraphConv

open Idealize.ShloMosaic Idealize.ShloMosaic.ValueIdx

/-- The shape of an [a × b] matrix. -/
abbrev Mat (a b : Nat) : Shape := ⟨2, ![a, b]⟩

/-- The word of the float zero, read as an extended real. -/
abbrev zeroWord : EReal := Ideal.ofBits .f32 0x00000000#32

variable {n K M : Nat}

/-- The matrix product: entry (p, q) is the sum over k of `x[p, k] · w[k, q]`. -/
def matProd (x : (Mat n K).Idx → EReal) (w : (Mat K M).Idx → EReal) : (Mat n M).Idx → EReal :=
  fun i => ∑ k : Fin K, x (ix2 (⟨(i 0).val, idx2_lt0 i⟩ : Fin n) k) * w (ix2 k (⟨(i 1).val, idx2_lt1 i⟩ : Fin M))

/-- Row p multiplied by the column's entry `s[p, 0]`. -/
def scaleRows (a : (Mat n M).Idx → EReal) (s : (Mat n 1).Idx → EReal) : (Mat n M).Idx → EReal :=
  fun i => a i * s (ix2 (⟨(i 0).val, idx2_lt0 i⟩ : Fin n) (0 : Fin 1))

/-- The row vector `b[0, ·]` added to every row. -/
def addRow (a : (Mat n M).Idx → EReal) (b : (Mat 1 M).Idx → EReal) : (Mat n M).Idx → EReal :=
  fun i => a i + b (ix2 (0 : Fin 1) (⟨(i 1).val, idx2_lt1 i⟩ : Fin M))

/-- The entrywise maximum with zero. -/
def rectify (v : (Mat n M).Idx → EReal) : (Mat n M).Idx → EReal :=
  fun i => max (v i) zeroWord

theorem matProd_at (x : (Mat n K).Idx → EReal) (w : (Mat K M).Idx → EReal) (p : Fin n) (q : Fin M) :
    matProd x w (ix2 p q) = ∑ k : Fin K, x (ix2 p k) * w (ix2 k q) := rfl

theorem scaleRows_at (a : (Mat n M).Idx → EReal) (s : (Mat n 1).Idx → EReal) (p : Fin n) (q : Fin M) :
    scaleRows a s (ix2 p q) = a (ix2 p q) * s (ix2 p (0 : Fin 1)) := rfl

theorem addRow_at (a : (Mat n M).Idx → EReal) (b : (Mat 1 M).Idx → EReal) (p : Fin n) (q : Fin M) :
    addRow a b (ix2 p q) = a (ix2 p q) + b (ix2 (0 : Fin 1) q) := rfl

theorem rectify_at (v : (Mat n M).Idx → EReal) (i : (Mat n M).Idx) : rectify v i = max (v i) zeroWord := rfl

/-! ## A host program's spelling of each piece -/

/-- A `dot_general` whose dimension numbers contract the left operand's second axis with the right operand's first
    (one contracted axis of extent `K`, no batch axis: the four hypotheses on where it reads its operands) is the
    matrix product. -/
theorem dotGeneral_eq_matProd {φ₁ φ₂ : FTy} (D : DotDims (Mat n K) (Mat K M) (Mat n M))
    (hr : D.contr.rank = 1) (hs : D.contr.size ⟨0, by omega⟩ = K)
    (hl0 : ∀ (i : (Mat n M).Idx) (q : D.contr.Idx), (D.lhsIdx i q 0).val = (i 0).val)
    (hl1 : ∀ (i : (Mat n M).Idx) (q : D.contr.Idx), (D.lhsIdx i q 1).val = (q ⟨0, by omega⟩).val)
    (hr0 : ∀ (i : (Mat n M).Idx) (q : D.contr.Idx), (D.rhsIdx i q 0).val = (q ⟨0, by omega⟩).val)
    (hr1 : ∀ (i : (Mat n M).Idx) (q : D.contr.Idx), (D.rhsIdx i q 1).val = (i 1).val)
    (prec : Option ContractPrecision) (l : FVec Ideal (Mat n K) φ₁) (r : FVec Ideal (Mat K M) φ₂) :
    Host.dotGeneral D prec l r = matProd l r := by
  funext i
  obtain ⟨p, q, rfl⟩ : ∃ (p : Fin n) (q : Fin M), i = ix2 p q := ⟨i 0, i 1, eq_ix2 i⟩
  rw [matProd_at]
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A product with a column broadcast along the rows scales the rows. -/
theorem mulf_bcastCol (h : (Mat n 1).BroadcastsInDim (Mat n M) ![0, 1]) (a : FVec Ideal (Mat n M) .f32)
    (s : FVec Ideal (Mat n 1) .f32) :
    mulf a (broadcastInDim (Mat n M) ![0, 1] h s) = scaleRows a s := by
  funext i
  obtain ⟨p, q, rfl⟩ : ∃ (p : Fin n) (q : Fin M), i = ix2 p q := ⟨i 0, i 1, eq_ix2 i⟩
  rw [scaleRows_at, mulf_apply]
  refine congrArg (a (ix2 p q) * ·) ?_
  refine broadcastInDim_apply _ h s (ix2 p q) (ix2 p (0 : Fin 1)) fun d => ?_
  match d with
  | ⟨0, _⟩ =>
    show p.val = if n = 1 then 0 else p.val
    split
    · have := p.isLt; omega
    · rfl
  | ⟨1, _⟩ => show 0 = if (1 : Nat) = 1 then 0 else q.val; rw [if_pos rfl]

/-- A sum with a row broadcast along the columns adds the row. -/
theorem addf_bcastRow (h : (Mat 1 M).BroadcastsInDim (Mat n M) ![0, 1]) (a : FVec Ideal (Mat n M) .f32)
    (b : FVec Ideal (Mat 1 M) .f32) :
    addf a (broadcastInDim (Mat n M) ![0, 1] h b) = addRow a b := by
  funext i
  obtain ⟨p, q, rfl⟩ : ∃ (p : Fin n) (q : Fin M), i = ix2 p q := ⟨i 0, i 1, eq_ix2 i⟩
  rw [addRow_at, addf_apply]
  refine congrArg (a (ix2 p q) + ·) ?_
  refine broadcastInDim_apply _ h b (ix2 p q) (ix2 (0 : Fin 1) q) fun d => ?_
  match d with
  | ⟨0, _⟩ => show 0 = if (1 : Nat) = 1 then 0 else p.val; rw [if_pos rfl]
  | ⟨1, _⟩ =>
    show q.val = if M = 1 then 0 else q.val
    split
    · have := q.isLt; omega
    · rfl

/-- A maximum with the zero scalar broadcast to the whole shape is the positive part. -/
theorem maximumf_bcastZero (h : (⟨0, ![]⟩ : Shape).BroadcastsInDim (Mat n M) ![]) (v : FVec Ideal (Mat n M) .f32) :
    maximumf v (broadcastInDim (Mat n M) ![] h (constant (F := Ideal) (⟨0, ![]⟩ : Shape) .f32 0x00000000#32)) = rectify v := by
  funext i
  rw [rectify_at, maximumf_apply]
  refine congrArg (max (v i) ·) ?_
  exact broadcastInDim_apply _ h _ i (fun d => d.elim0) fun d => d.elim0

end Cert.GraphConv

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Region0.lean ====
/-
  The first transform: what the first pipelined region leaves in its output array.

  The region walks ten row blocks of 10000 rows. At block t its body multiplies rows 10000·t … 10000·t + 9999 of the
  features by the whole weight matrix and scales each product row by that row's entry of the source-degree column. Row
  blocks are disjoint and fill the array, and entry (p, q) of a product depends on row p of the left operand only, so
  the array the region leaves is `scaleRows (matProd x w) s` of the three arrays it was entered with.
-/
import proofs.«133455_j75127567942075_1_alg».proof.Proof.Gen.KernelIdeal.Frame
import proofs.«133455_j75127567942075_1_alg».proof.Proof.Spec
import proofs.«133455_j75127567942075_1_alg».proof.Proof.LibMatmulAt
import Idealize.ShloMosaic.Lib.Pipeline.Value

set_option maxRecDepth 16384

noncomputable section

namespace Cert.KernelIdeal.Region0

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Where the body's matrix product reads its operands -/

theorem lhs_0 (i : S10000x128.Idx) (q : dot_S10000x256_S256x128_S10000x128_1_0_0_1_n_n.contr.Idx) : (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem lhs_1 (i : S10000x128.Idx) (q : dot_S10000x256_S256x128_S10000x128_1_0_0_1_n_n.contr.Idx) : (dot_S10000x256_S256x128_S10000x128_1_0_0_1_n_n.lhsIdx i q 1).val = (q ⟨0, by decide⟩).val :=
  dot_S10000x256_S256x128_S10000x128_1_0_0_1_n_n.lhsIdx_val_of_single rfl i q
theorem rhs_0 (i : S10000x128.Idx) (q : dot_S10000x256_S256x128_S10000x128_1_0_0_1_n_n.contr.Idx) : (dot_S10000x256_S256x128_S10000x128_1_0_0_1_n_n.rhsIdx i q 0).val = (q ⟨0, by decide⟩).val :=
  dot_S10000x256_S256x128_S10000x128_1_0_0_1_n_n.rhsIdx_val_of_single rfl i q
theorem rhs_1 (i : S10000x128.Idx) (q : dot_S10000x256_S256x128_S10000x128_1_0_0_1_n_n.contr.Idx) : (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-! ## One block -/

/-- Entry (p, q) of what the body stores: row p of the feature block times column q of the weights, scaled by the
    row's entry of the column block. -/
theorem pay_at (x0 : Vec Ideal S10000x256 .bf16) (x1 : Vec Ideal S256x128 .bf16) (x2 : Vec Ideal S10000x1 .f32)
    (p : Fin 10000) (q : Fin 128) :
    k0_pay1 x0 x1 x2 (ix2 p q) = (∑ k : Fin 256, x0 (ix2 p k) * x1 (ix2 k q)) * x2 (ix2 p (0 : Fin 1)) := by
  unfold k0_pay1
  simp only [shapeCast_self]
  show FloatOps.matmul dot_S10000x256_S256x128_S10000x128_1_0_0_1_n_n none x0 x1 (constant (F := Ideal) S10000x128 .f32 0x00000000#32) (ix2 p q)
      * broadcastTo S10000x128 x2 broadcasts_S10000x1_S10000x128 (ix2 p q) = _
  rw [MatmulAt.matmul_zero_at dot_S10000x256_S256x128_S10000x128_1_0_0_1_n_n rfl rfl lhs_0 lhs_1 rhs_0 rhs_1]
  refine congrArg (_ * ·) ?_
  exact broadcastTo_apply x2 _ (ix2 p q) (ix2 p (0 : Fin 1)) fun a => match a with
    | ⟨0, _⟩ => by show p.val = if (10000 : Nat) = 1 then 0 else p.val; rw [if_neg (by decide)]
    | ⟨1, _⟩ => by show 0 = if (1 : Nat) = 1 then 0 else q.val; rw [if_pos rfl]

/-! ## The index maps, decided over the ten grid points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the scaled product of the arrays the region was entered with. -/
theorem flushed_eq (c : Dev nD) (t : Fin cfg0.N) :
    (dat0 V c).flushed 3 t = ((cfg0.win 3).blk t).view.read (Elt Ideal)
      (scaleRows (matProd (V c main_v15) (V c main_v16)) (V c main_v13)) := by
  show (cfg0.win 3).cut (grid0.coords t) ((dat0 V c).after 3 t) = _
  rw [after0_3]
  unfold out0_3
  rw [View.canon_unit_zero hz]
  simp only [View.ld_unit_zero (S := S10000x256) hz, View.ld_unit_zero (S := S256x128) hz, View.ld_unit_zero (S := S10000x1) hz]
  obtain ⟨e00, e01, e10, e11, e20, e21, e30, e31⟩ := idx_facts t
  have ht : t.val < 10 := Nat.lt_of_lt_of_eq t.isLt N_0
  funext j
  show k0_pay1 (iblk0 V c 0 t) (iblk0 V c 1 t) (iblk0 V c 2 t) j
    = scaleRows (matProd (V c main_v15) (V c main_v16)) (V c main_v13) (((cfg0.win 3).blk t).view.emb j)
  obtain ⟨p, q, rfl⟩ : ∃ (p : Fin 10000) (q : Fin 128), j = ix2 p q := ⟨j 0, j 1, eq_ix2 j⟩
  have hp : 10000 * t.val + p.val < 100000 := by have := p.isLt; omega
  refine (pay_at (iblk0 V c 0 t) (iblk0 V c 1 t) (iblk0 V c 2 t) p q).trans ?_
  have he : ((cfg0.win 3).blk t).view.emb (ix2 p q) = ix2 (⟨10000 * t.val + p.val, hp⟩ : Fin 100000) q :=
    funext fun a => Fin.ext (by
      match a with
      | ⟨0, _⟩ => show win0_3.index t (0 : Fin 2) * 10000 + 1 * p.val = 10000 * t.val + p.val; rw [e30]; omega
      | ⟨1, _⟩ => show win0_3.index t (1 : Fin 2) * 128 + 1 * q.val = q.val; rw [e31]; omega)
  rw [he, scaleRows_at, matProd_at]
  have h0 : ∀ k : Fin 256, iblk0 V c 0 t (ix2 p k) = V c main_v15 (ix2 (⟨10000 * t.val + p.val, hp⟩ : Fin 100000) k) := fun k => by
    show V c main_v15 (((cfg0.win 0).blk t).view.emb (ix2 p k)) = _
    refine congrArg (V c main_v15) (funext fun a => Fin.ext ?_)
    match a with
    | ⟨0, _⟩ => show win0_0.index t (0 : Fin 2) * 10000 + 1 * p.val = 10000 * t.val + p.val; rw [e00]; omega
    | ⟨1, _⟩ => show win0_0.index t (1 : Fin 2) * 256 + 1 * k.val = k.val; rw [e01]; omega
  have h1 : ∀ k : Fin 256, iblk0 V c 1 t (ix2 k q) = V c main_v16 (ix2 k q) := fun k => by
    show V c main_v16 (((cfg0.win 1).blk t).view.emb (ix2 k q)) = _
    refine congrArg (V c main_v16) (funext fun a => Fin.ext ?_)
    match a with
    | ⟨0, _⟩ => show win0_1.index t (0 : Fin 2) * 256 + 1 * k.val = k.val; rw [e10]; omega
    | ⟨1, _⟩ => show win0_1.index t (1 : Fin 2) * 128 + 1 * q.val = q.val; rw [e11]; omega
  have h2 : iblk0 V c 2 t (ix2 p (0 : Fin 1)) = V c main_v13 (ix2 (⟨10000 * t.val + p.val, hp⟩ : Fin 100000) (0 : Fin 1)) := by
    show V c main_v13 (((cfg0.win 2).blk t).view.emb (ix2 p (0 : Fin 1))) = _
    refine congrArg (V c main_v13) (funext fun a => Fin.ext ?_)
    match a with
    | ⟨0, _⟩ => show win0_2.index t (0 : Fin 2) * 10000 + 1 * p.val = 10000 * t.val + p.val; rw [e20]; omega
    | ⟨1, _⟩ => show win0_2.index t (1 : Fin 2) * 1 + 1 * 0 = 0; rw [e21]
  rw [h2]
  exact congrArg (· * _) (Finset.sum_congr rfl fun k _ => by rw [h0 k, h1 k])

/-- An index of the output array is in point t's block iff each coordinate is in the block's range on its axis. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v17).slice (win0_3.rect t)).set ↔ _
  rw [View.set_slice_whole, Rect.mem_set_unit]
  exact Iff.rfl

/-- Every row is in the block of the point its row number divided by 10000 names. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  refine ⟨⟨(i 0).val / 10000, by rw [show cfg0.N = 10 from N_0]; omega⟩, flush0_3 _, ?_⟩
  rw [mem_blk]
  obtain ⟨-, -, -, -, -, -, e30, e31⟩ := idx_facts ⟨(i 0).val / 10000, by rw [show cfg0.N = 10 from N_0]; omega⟩
  intro a
  match a with
  | ⟨0, _⟩ =>
    show win0_3.index _ (0 : Fin 2) * 10000 ≤ (i 0).val ∧ (i 0).val < win0_3.index _ (0 : Fin 2) * 10000 + 10000
    rw [e30]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e31]; omega

/-- The array the region leaves: the product of the features and the weights it was entered with, its rows scaled
    by the column it was entered with. -/
theorem arr (c : Dev nD) :
    (dat0 V c).arrAt 3 cfg0.N = scaleRows (matProd (V c main_v15) (V c main_v16)) (V c main_v13) :=
  (dat0 V c).arrAt_eq_of_cover 3 _ (fun t _ => flushed_eq V c t) cover

end Cert.KernelIdeal.Region0

end
-- ==== Proof.Region1.lean ====
/-
  The first layer's output: what the second pipelined region leaves in its output array.

  The region walks ten row blocks of 10000 rows of the aggregated messages. At each block its body scales every row
  by that row's entry of the destination-degree column, adds the bias row, and takes the positive part. All three are
  entrywise in the row and the column, the row blocks are disjoint and fill the array, so the array the region leaves
  is `rectify (addRow (scaleRows a s) b)` of the three arrays it was entered with.
-/
import proofs.«133455_j75127567942075_1_alg».proof.Proof.Gen.KernelIdeal.Frame
import proofs.«133455_j75127567942075_1_alg».proof.Proof.Spec
import Idealize.ShloMosaic.Lib.Pipeline.Value

set_option maxRecDepth 16384

noncomputable section

namespace Cert.KernelIdeal.Region1

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## One block -/

/-- Entry (p, q) of what the body stores: the aggregate's entry times the row's entry of the column block, plus the
    bias row's entry, or zero if that is larger. -/
theorem pay_at (x0 : Vec Ideal S10000x128 .f32) (x1 : Vec Ideal S10000x1 .f32) (x2 : Vec Ideal S1x128 .f32)
    (p : Fin 10000) (q : Fin 128) :
    k1_pay1 x0 x1 x2 (ix2 p q) = max (x0 (ix2 p q) * x1 (ix2 p (0 : Fin 1)) + x2 (ix2 (0 : Fin 1) q)) zeroWord := by
  unfold k1_pay1
  simp only [shapeCast_self]
  have hb1 : broadcastTo S10000x128 x1 broadcasts_S10000x1_S10000x128 (ix2 p q) = x1 (ix2 p (0 : Fin 1)) :=
    broadcastTo_apply x1 _ (ix2 p q) (ix2 p (0 : Fin 1)) fun a => match a with
      | ⟨0, _⟩ => by show p.val = if (10000 : Nat) = 1 then 0 else p.val; rw [if_neg (by decide)]
      | ⟨1, _⟩ => by show 0 = if (1 : Nat) = 1 then 0 else q.val; rw [if_pos rfl]
  have hb2 : broadcastTo S10000x128 x2 broadcasts_S1x128_S10000x128 (ix2 p q) = x2 (ix2 (0 : Fin 1) q) :=
    broadcastTo_apply x2 _ (ix2 p q) (ix2 (0 : Fin 1) q) fun a => match a with
      | ⟨0, _⟩ => by show 0 = if (1 : Nat) = 1 then 0 else p.val; rw [if_pos rfl]
      | ⟨1, _⟩ => by show q.val = if (128 : Nat) = 1 then 0 else q.val; rw [if_neg (by decide)]
  show max (x0 (ix2 p q) * broadcastTo S10000x128 x1 broadcasts_S10000x1_S10000x128 (ix2 p q)
      + broadcastTo S10000x128 x2 broadcasts_S1x128_S10000x128 (ix2 p q)) zeroWord = _
  rw [hb1, hb2]

/-! ## The index maps, decided over the ten grid points -/

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the rectified, biased, row-scaled aggregate the region was entered with. -/
theorem flushed_eq (c : Dev nD) (t : Fin cfg1.N) :
    (dat1 V c).flushed 3 t = ((cfg1.win 3).blk t).view.read (Elt Ideal)
      (rectify (addRow (scaleRows (V c main_v27) (V c main_v14)) (V c main_v28))) := by
  show (cfg1.win 3).cut (grid1.coords t) ((dat1 V c).after 3 t) = _
  rw [after1_3]
  unfold out1_3
  rw [View.canon_unit_zero hz]
  simp only [View.ld_unit_zero (S := S10000x128) hz, View.ld_unit_zero (S := S10000x1) hz, View.ld_unit_zero (S := S1x128) hz]
  obtain ⟨e00, e01, e10, e11, e20, e21, e30, e31⟩ := idx_facts t
  have ht : t.val < 10 := Nat.lt_of_lt_of_eq t.isLt N_1
  funext j
  show k1_pay1 (iblk1 V c 0 t) (iblk1 V c 1 t) (iblk1 V c 2 t) j
    = rectify (addRow (scaleRows (V c main_v27) (V c main_v14)) (V c main_v28)) (((cfg1.win 3).blk t).view.emb j)
  obtain ⟨p, q, rfl⟩ : ∃ (p : Fin 10000) (q : Fin 128), j = ix2 p q := ⟨j 0, j 1, eq_ix2 j⟩
  have hp : 10000 * t.val + p.val < 100000 := by have := p.isLt; omega
  refine (pay_at (iblk1 V c 0 t) (iblk1 V c 1 t) (iblk1 V c 2 t) p q).trans ?_
  have he : ((cfg1.win 3).blk t).view.emb (ix2 p q) = ix2 (⟨10000 * t.val + p.val, hp⟩ : Fin 100000) q :=
    funext fun a => Fin.ext (by
      match a with
      | ⟨0, _⟩ => show win1_3.index t (0 : Fin 2) * 10000 + 1 * p.val = 10000 * t.val + p.val; rw [e30]; omega
      | ⟨1, _⟩ => show win1_3.index t (1 : Fin 2) * 128 + 1 * q.val = q.val; rw [e31]; omega)
  rw [he, rectify_at, addRow_at, scaleRows_at]
  have h0 : iblk1 V c 0 t (ix2 p q) = V c main_v27 (ix2 (⟨10000 * t.val + p.val, hp⟩ : Fin 100000) q) := by
    show V c main_v27 (((cfg1.win 0).blk t).view.emb (ix2 p q)) = _
    refine congrArg (V c main_v27) (funext fun a => Fin.ext ?_)
    match a with
    | ⟨0, _⟩ => show win1_0.index t (0 : Fin 2) * 10000 + 1 * p.val = 10000 * t.val + p.val; rw [e00]; omega
    | ⟨1, _⟩ => show win1_0.index t (1 : Fin 2) * 128 + 1 * q.val = q.val; rw [e01]; omega
  have h1 : iblk1 V c 1 t (ix2 p (0 : Fin 1)) = V c main_v14 (ix2 (⟨10000 * t.val + p.val, hp⟩ : Fin 100000) (0 : Fin 1)) := by
    show V c main_v14 (((cfg1.win 1).blk t).view.emb (ix2 p (0 : Fin 1))) = _
    refine congrArg (V c main_v14) (funext fun a => Fin.ext ?_)
    match a with
    | ⟨0, _⟩ => show win1_1.index t (0 : Fin 2) * 10000 + 1 * p.val = 10000 * t.val + p.val; rw [e10]; omega
    | ⟨1, _⟩ => show win1_1.index t (1 : Fin 2) * 1 + 1 * 0 = 0; rw [e11]
  have h2 : iblk1 V c 2 t (ix2 (0 : Fin 1) q) = V c main_v28 (ix2 (0 : Fin 1) q) := by
    show V c main_v28 (((cfg1.win 2).blk t).view.emb (ix2 (0 : Fin 1) q)) = _
    refine congrArg (V c main_v28) (funext fun a => Fin.ext ?_)
    match a with
    | ⟨0, _⟩ => show win1_2.index t (0 : Fin 2) * 1 + 1 * 0 = 0; rw [e20]
    | ⟨1, _⟩ => show win1_2.index t (1 : Fin 2) * 128 + 1 * q.val = q.val; rw [e21]; omega
  rw [h0, h1, h2]

/-- An index of the output array is in point t's block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v29).slice (win1_3.rect t)).set ↔ _
  rw [View.set_slice_whole, Rect.mem_set_unit]
  exact Iff.rfl

/-- Every row is in the block of the point its row number divided by 10000 names. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  refine ⟨⟨(i 0).val / 10000, by rw [show cfg1.N = 10 from N_1]; omega⟩, flush1_3 _, ?_⟩
  rw [mem_blk]
  obtain ⟨-, -, -, -, -, -, e30, e31⟩ := idx_facts ⟨(i 0).val / 10000, by rw [show cfg1.N = 10 from N_1]; omega⟩
  intro a
  match a with
  | ⟨0, _⟩ =>
    show win1_3.index _ (0 : Fin 2) * 10000 ≤ (i 0).val ∧ (i 0).val < win1_3.index _ (0 : Fin 2) * 10000 + 10000
    rw [e30]; show (i 0).val / 10000 * 10000 ≤ (i 0).val ∧ (i 0).val < (i 0).val / 10000 * 10000 + 10000; omega
  | ⟨1, _⟩ =>
    show win1_3.index _ (1 : Fin 2) * 128 ≤ (i 1).val ∧ (i 1).val < win1_3.index _ (1 : Fin 2) * 128 + 128
    rw [e31]; omega

/-- The array the region leaves: the aggregate it was entered with, its rows scaled by the column, the bias row added,
    the positive part taken. -/
theorem arr (c : Dev nD) :
    (dat1 V c).arrAt 3 cfg1.N = rectify (addRow (scaleRows (V c main_v27) (V c main_v14)) (V c main_v28)) :=
  (dat1 V c).arrAt_eq_of_cover 3 _ (fun t _ => flushed_eq V c t) cover

end Cert.KernelIdeal.Region1

end
-- ==== Proof.Region2.lean ====
/-
  The second transform: what the third pipelined region leaves in its output array.

  The region walks ten row blocks of 10000 rows. At block t its body multiplies rows 10000·t … 10000·t + 9999 of the
  first layer's output by the whole weight matrix and scales each product row by that row's entry of the source-degree column. Row
  blocks are disjoint and fill the array, and entry (p, q) of a product depends on row p of the left operand only, so
  the array the region leaves is `scaleRows (matProd x w) s` of the three arrays it was entered with.
-/
import proofs.«133455_j75127567942075_1_alg».proof.Proof.Gen.KernelIdeal.Frame
import proofs.«133455_j75127567942075_1_alg».proof.Proof.Spec
import proofs.«133455_j75127567942075_1_alg».proof.Proof.LibMatmulAt
import Idealize.ShloMosaic.Lib.Pipeline.Value

set_option maxRecDepth 16384

noncomputable section

namespace Cert.KernelIdeal.Region2

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Where the body's matrix product reads its operands -/

theorem lhs_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## One block -/

/-- Entry (p, q) of what the body stores: row p of the hidden block times column q of the weights, scaled by the
    row's entry of the column block. -/
theorem pay_at (x0 : Vec Ideal S10000x128 .bf16) (x1 : Vec Ideal S128x128 .bf16) (x2 : Vec Ideal S10000x1 .f32)
    (p : Fin 10000) (q : Fin 128) :
    k2_pay1 x0 x1 x2 (ix2 p q) = (∑ k : Fin 128, x0 (ix2 p k) * x1 (ix2 k q)) * x2 (ix2 p (0 : Fin 1)) := by
  unfold k2_pay1
  simp only [shapeCast_self]
  show FloatOps.matmul dot_S10000x128_S128x128_S10000x128_1_0_0_1_n_n none x0 x1 (constant (F := Ideal) S10000x128 .f32 0x00000000#32) (ix2 p q)
      * broadcastTo S10000x128 x2 broadcasts_S10000x1_S10000x128 (ix2 p q) = _
  rw [MatmulAt.matmul_zero_at dot_S10000x128_S128x128_S10000x128_1_0_0_1_n_n rfl rfl lhs_0 lhs_1 rhs_0 rhs_1]
  refine congrArg (_ * ·) ?_
  exact broadcastTo_apply x2 _ (ix2 p q) (ix2 p (0 : Fin 1)) fun a => match a with
    | ⟨0, _⟩ => by show p.val = if (10000 : Nat) = 1 then 0 else p.val; rw [if_neg (by decide)]
    | ⟨1, _⟩ => by show 0 = if (1 : Nat) = 1 then 0 else q.val; rw [if_pos rfl]

/-! ## The index maps, decided over the ten grid points -/

theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back is block t of the scaled product of the arrays the region was entered with. -/
theorem flushed_eq (c : Dev nD) (t : Fin cfg2.N) :
    (dat2 V c).flushed 3 t = ((cfg2.win 3).blk t).view.read (Elt Ideal)
      (scaleRows (matProd (V c main_v30) (V c main_v31)) (V c main_v13)) := by
  show (cfg2.win 3).cut (grid2.coords t) ((dat2 V c).after 3 t) = _
  rw [after2_3]
  unfold out2_3
  rw [View.canon_unit_zero hz]
  simp only [View.ld_unit_zero (S := S10000x128) hz, View.ld_unit_zero (S := S128x128) hz, View.ld_unit_zero (S := S10000x1) hz]
  obtain ⟨e00, e01, e10, e11, e20, e21, e30, e31⟩ := idx_facts t
  have ht : t.val < 10 := Nat.lt_of_lt_of_eq t.isLt N_2
  funext j
  show k2_pay1 (iblk2 V c 0 t) (iblk2 V c 1 t) (iblk2 V c 2 t) j
    = scaleRows (matProd (V c main_v30) (V c main_v31)) (V c main_v13) (((cfg2.win 3).blk t).view.emb j)
  obtain ⟨p, q, rfl⟩ : ∃ (p : Fin 10000) (q : Fin 128), j = ix2 p q := ⟨j 0, j 1, eq_ix2 j⟩
  have hp : 10000 * t.val + p.val < 100000 := by have := p.isLt; omega
  refine (pay_at (iblk2 V c 0 t) (iblk2 V c 1 t) (iblk2 V c 2 t) p q).trans ?_
  have he : ((cfg2.win 3).blk t).view.emb (ix2 p q) = ix2 (⟨10000 * t.val + p.val, hp⟩ : Fin 100000) q :=
    funext fun a => Fin.ext (by
      match a with
      | ⟨0, _⟩ => show win2_3.index t (0 : Fin 2) * 10000 + 1 * p.val = 10000 * t.val + p.val; rw [e30]; omega
      | ⟨1, _⟩ => show win2_3.index t (1 : Fin 2) * 128 + 1 * q.val = q.val; rw [e31]; omega)
  rw [he, scaleRows_at, matProd_at]
  have h0 : ∀ k : Fin 128, iblk2 V c 0 t (ix2 p k) = V c main_v30 (ix2 (⟨10000 * t.val + p.val, hp⟩ : Fin 100000) k) := fun k => by
    show V c main_v30 (((cfg2.win 0).blk t).view.emb (ix2 p k)) = _
    refine congrArg (V c main_v30) (funext fun a => Fin.ext ?_)
    match a with
    | ⟨0, _⟩ => show win2_0.index t (0 : Fin 2) * 10000 + 1 * p.val = 10000 * t.val + p.val; rw [e00]; omega
    | ⟨1, _⟩ => show win2_0.index t (1 : Fin 2) * 128 + 1 * k.val = k.val; rw [e01]; omega
  have h1 : ∀ k : Fin 128, iblk2 V c 1 t (ix2 k q) = V c main_v31 (ix2 k q) := fun k => by
    show V c main_v31 (((cfg2.win 1).blk t).view.emb (ix2 k q)) = _
    refine congrArg (V c main_v31) (funext fun a => Fin.ext ?_)
    match a with
    | ⟨0, _⟩ => show win2_1.index t (0 : Fin 2) * 128 + 1 * k.val = k.val; rw [e10]; omega
    | ⟨1, _⟩ => show win2_1.index t (1 : Fin 2) * 128 + 1 * q.val = q.val; rw [e11]; omega
  have h2 : iblk2 V c 2 t (ix2 p (0 : Fin 1)) = V c main_v13 (ix2 (⟨10000 * t.val + p.val, hp⟩ : Fin 100000) (0 : Fin 1)) := by
    show V c main_v13 (((cfg2.win 2).blk t).view.emb (ix2 p (0 : Fin 1))) = _
    refine congrArg (V c main_v13) (funext fun a => Fin.ext ?_)
    match a with
    | ⟨0, _⟩ => show win2_2.index t (0 : Fin 2) * 10000 + 1 * p.val = 10000 * t.val + p.val; rw [e20]; omega
    | ⟨1, _⟩ => show win2_2.index t (1 : Fin 2) * 1 + 1 * 0 = 0; rw [e21]
  rw [h2]
  exact congrArg (· * _) (Finset.sum_congr rfl fun k _ => by rw [h0 k, h1 k])

/-- An index of the output array is in point t's block iff each coordinate is in the block's range on its axis. -/
theorem mem_blk (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v32).slice (win2_3.rect t)).set ↔ _
  rw [View.set_slice_whole, Rect.mem_set_unit]
  exact Iff.rfl

/-- Every row is in the block of the point its row number divided by 10000 names. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  refine ⟨⟨(i 0).val / 10000, by rw [show cfg2.N = 10 from N_2]; omega⟩, flush2_3 _, ?_⟩
  rw [mem_blk]
  obtain ⟨-, -, -, -, -, -, e30, e31⟩ := idx_facts ⟨(i 0).val / 10000, by rw [show cfg2.N = 10 from N_2]; omega⟩
  intro a
  match a with
  | ⟨0, _⟩ =>
    show win2_3.index _ (0 : Fin 2) * 10000 ≤ (i 0).val ∧ (i 0).val < win2_3.index _ (0 : Fin 2) * 10000 + 10000
    rw [e30]; show (i 0).val / 10000 * 10000 ≤ (i 0).val ∧ (i 0).val < (i 0).val / 10000 * 10000 + 10000; omega
  | ⟨1, _⟩ =>
    show win2_3.index _ (1 : Fin 2) * 128 ≤ (i 1).val ∧ (i 1).val < win2_3.index _ (1 : Fin 2) * 128 + 128
    rw [e31]; omega

/-- The array the region leaves: the product of the hidden states and the weights it was entered with, its rows scaled
    by the column it was entered with. -/
theorem arr (c : Dev nD) :
    (dat2 V c).arrAt 3 cfg2.N = scaleRows (matProd (V c main_v30) (V c main_v31)) (V c main_v13) :=
  (dat2 V c).arrAt_eq_of_cover 3 _ (fun t _ => flushed_eq V c t) cover

end Cert.KernelIdeal.Region2

end
-- ==== Proof.Region3.lean ====
/-
  The second layer's output: what the fourth pipelined region leaves in its output array.

  The region walks ten row blocks of 10000 rows of the aggregated messages. At each block its body scales every row
  by that row's entry of the destination-degree column and adds the bias row. Both are
  entrywise in the row and the column, the row blocks are disjoint and fill the array, so the array the region leaves
  is `addRow (scaleRows a s) b` of the three arrays it was entered with.
-/
import proofs.«133455_j75127567942075_1_alg».proof.Proof.Gen.KernelIdeal.Frame
import proofs.«133455_j75127567942075_1_alg».proof.Proof.Spec
import Idealize.ShloMosaic.Lib.Pipeline.Value

set_option maxRecDepth 16384

noncomputable section

namespace Cert.KernelIdeal.Region3

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## One block -/

/-- Entry (p, q) of what the body stores: the aggregate's entry times the row's entry of the column block, plus the
    bias row's entry. -/
theorem pay_at (x0 : Vec Ideal S10000x128 .f32) (x1 : Vec Ideal S10000x1 .f32) (x2 : Vec Ideal S1x128 .f32)
    (p : Fin 10000) (q : Fin 128) :
    k3_pay1 x0 x1 x2 (ix2 p q) = x0 (ix2 p q) * x1 (ix2 p (0 : Fin 1)) + x2 (ix2 (0 : Fin 1) q) := by
  unfold k3_pay1
  simp only [shapeCast_self]
  have hb1 : broadcastTo S10000x128 x1 broadcasts_S10000x1_S10000x128 (ix2 p q) = x1 (ix2 p (0 : Fin 1)) :=
    broadcastTo_apply x1 _ (ix2 p q) (ix2 p (0 : Fin 1)) fun a => match a with
      | ⟨0, _⟩ => by show p.val = if (10000 : Nat) = 1 then 0 else p.val; rw [if_neg (by decide)]
      | ⟨1, _⟩ => by show 0 = if (1 : Nat) = 1 then 0 else q.val; rw [if_pos rfl]
  have hb2 : broadcastTo S10000x128 x2 broadcasts_S1x128_S10000x128 (ix2 p q) = x2 (ix2 (0 : Fin 1) q) :=
    broadcastTo_apply x2 _ (ix2 p q) (ix2 (0 : Fin 1) q) fun a => match a with
      | ⟨0, _⟩ => by show 0 = if (1 : Nat) = 1 then 0 else p.val; rw [if_pos rfl]
      | ⟨1, _⟩ => by show q.val = if (128 : Nat) = 1 then 0 else q.val; rw [if_neg (by decide)]
  show x0 (ix2 p q) * broadcastTo S10000x128 x1 broadcasts_S10000x1_S10000x128 (ix2 p q)
      + broadcastTo S10000x128 x2 broadcasts_S1x128_S10000x128 (ix2 p q) = _
  rw [hb1, hb2]

/-! ## The index maps, decided over the ten grid points -/

theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the biased, row-scaled aggregate the region was entered with. -/
theorem flushed_eq (c : Dev nD) (t : Fin cfg3.N) :
    (dat3 V c).flushed 3 t = ((cfg3.win 3).blk t).view.read (Elt Ideal)
      (addRow (scaleRows (V c main_v42) (V c main_v14)) (V c main_v43)) := by
  show (cfg3.win 3).cut (grid3.coords t) ((dat3 V c).after 3 t) = _
  rw [after3_3]
  unfold out3_3
  rw [View.canon_unit_zero hz]
  simp only [View.ld_unit_zero (S := S10000x128) hz, View.ld_unit_zero (S := S10000x1) hz, View.ld_unit_zero (S := S1x128) hz]
  obtain ⟨e00, e01, e10, e11, e20, e21, e30, e31⟩ := idx_facts t
  have ht : t.val < 10 := Nat.lt_of_lt_of_eq t.isLt N_3
  funext j
  show k3_pay1 (iblk3 V c 0 t) (iblk3 V c 1 t) (iblk3 V c 2 t) j
    = addRow (scaleRows (V c main_v42) (V c main_v14)) (V c main_v43) (((cfg3.win 3).blk t).view.emb j)
  obtain ⟨p, q, rfl⟩ : ∃ (p : Fin 10000) (q : Fin 128), j = ix2 p q := ⟨j 0, j 1, eq_ix2 j⟩
  have hp : 10000 * t.val + p.val < 100000 := by have := p.isLt; omega
  refine (pay_at (iblk3 V c 0 t) (iblk3 V c 1 t) (iblk3 V c 2 t) p q).trans ?_
  have he : ((cfg3.win 3).blk t).view.emb (ix2 p q) = ix2 (⟨10000 * t.val + p.val, hp⟩ : Fin 100000) q :=
    funext fun a => Fin.ext (by
      match a with
      | ⟨0, _⟩ => show win3_3.index t (0 : Fin 2) * 10000 + 1 * p.val = 10000 * t.val + p.val; rw [e30]; omega
      | ⟨1, _⟩ => show win3_3.index t (1 : Fin 2) * 128 + 1 * q.val = q.val; rw [e31]; omega)
  rw [he, addRow_at, scaleRows_at]
  have h0 : iblk3 V c 0 t (ix2 p q) = V c main_v42 (ix2 (⟨10000 * t.val + p.val, hp⟩ : Fin 100000) q) := by
    show V c main_v42 (((cfg3.win 0).blk t).view.emb (ix2 p q)) = _
    refine congrArg (V c main_v42) (funext fun a => Fin.ext ?_)
    match a with
    | ⟨0, _⟩ => show win3_0.index t (0 : Fin 2) * 10000 + 1 * p.val = 10000 * t.val + p.val; rw [e00]; omega
    | ⟨1, _⟩ => show win3_0.index t (1 : Fin 2) * 128 + 1 * q.val = q.val; rw [e01]; omega
  have h1 : iblk3 V c 1 t (ix2 p (0 : Fin 1)) = V c main_v14 (ix2 (⟨10000 * t.val + p.val, hp⟩ : Fin 100000) (0 : Fin 1)) := by
    show V c main_v14 (((cfg3.win 1).blk t).view.emb (ix2 p (0 : Fin 1))) = _
    refine congrArg (V c main_v14) (funext fun a => Fin.ext ?_)
    match a with
    | ⟨0, _⟩ => show win3_1.index t (0 : Fin 2) * 10000 + 1 * p.val = 10000 * t.val + p.val; rw [e10]; omega
    | ⟨1, _⟩ => show win3_1.index t (1 : Fin 2) * 1 + 1 * 0 = 0; rw [e11]
  have h2 : iblk3 V c 2 t (ix2 (0 : Fin 1) q) = V c main_v43 (ix2 (0 : Fin 1) q) := by
    show V c main_v43 (((cfg3.win 2).blk t).view.emb (ix2 (0 : Fin 1) q)) = _
    refine congrArg (V c main_v43) (funext fun a => Fin.ext ?_)
    match a with
    | ⟨0, _⟩ => show win3_2.index t (0 : Fin 2) * 1 + 1 * 0 = 0; rw [e20]
    | ⟨1, _⟩ => show win3_2.index t (1 : Fin 2) * 128 + 1 * q.val = q.val; rw [e21]; omega
  rw [h0, h1, h2]

/-- An index of the output array is in point t's block iff each coordinate is in the block's range on its axis. -/
theorem mem_blk (t : Fin cfg3.N) (i : S100000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v44).slice (win3_3.rect t)).set ↔ _
  rw [View.set_slice_whole, Rect.mem_set_unit]
  exact Iff.rfl

/-- Every row is in the block of the point its row number divided by 10000 names. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  refine ⟨⟨(i 0).val / 10000, by rw [show cfg3.N = 10 from N_3]; omega⟩, flush3_3 _, ?_⟩
  rw [mem_blk]
  obtain ⟨-, -, -, -, -, -, e30, e31⟩ := idx_facts ⟨(i 0).val / 10000, by rw [show cfg3.N = 10 from N_3]; omega⟩
  intro a
  match a with
  | ⟨0, _⟩ =>
    show win3_3.index _ (0 : Fin 2) * 10000 ≤ (i 0).val ∧ (i 0).val < win3_3.index _ (0 : Fin 2) * 10000 + 10000
    rw [e30]; show (i 0).val / 10000 * 10000 ≤ (i 0).val ∧ (i 0).val < (i 0).val / 10000 * 10000 + 10000; omega
  | ⟨1, _⟩ =>
    show win3_3.index _ (1 : Fin 2) * 128 ≤ (i 1).val ∧ (i 1).val < win3_3.index _ (1 : Fin 2) * 128 + 128
    rw [e31]; omega

/-- The array the region leaves: the aggregate it was entered with, its rows scaled by the column, the bias row added. -/
theorem arr (c : Dev nD) :
    (dat3 V c).arrAt 3 cfg3.N = addRow (scaleRows (V c main_v42) (V c main_v14)) (V c main_v43) :=
  (dat3 V c).arrAt_eq_of_cover 3 _ (fun t _ => flushed_eq V c t) cover

end Cert.KernelIdeal.Region3

end
-- ==== Proof.Region4.lean ====
/-
  The classifier: what the last pipelined region leaves in its output array.

  The region walks ten row blocks of 10000 rows of the second layer's output. At each block its body takes the
  positive part of the block, multiplies it by the whole classifier matrix and adds the bias row. Entry (p, q) of the
  product depends on row p of the left operand only, the positive part is entrywise, the row blocks are disjoint and
  fill the array, so the array the region leaves is `addRow (matProd (rectify h) w) b` of the three arrays it was
  entered with.
-/
import proofs.«133455_j75127567942075_1_alg».proof.Proof.Gen.KernelIdeal.Frame
import proofs.«133455_j75127567942075_1_alg».proof.Proof.Spec
import proofs.«133455_j75127567942075_1_alg».proof.Proof.LibMatmulAt
import Idealize.ShloMosaic.Lib.Pipeline.Value

set_option maxRecDepth 16384

noncomputable section

namespace Cert.KernelIdeal.Region4

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Where the body's matrix product reads its operands -/

theorem lhs_0 (i : S10000x40.Idx) (q : dot_S10000x128_S128x40_S10000x40_1_0_0_1_n_n.contr.Idx) : (dot_S10000x128_S128x40_S10000x40_1_0_0_1_n_n.lhsIdx i q 0).val = (i 0).val := by
  unfold DotDims.lhsIdx
  rw [dif_neg (show ¬(0 : Fin S10000x128.rank) ∈ dot_S10000x128_S128x40_S10000x40_1_0_0_1_n_n.lhsBatch by decide), dif_pos (show (0 : Fin S10000x128.rank) ∈ dot_S10000x128_S128x40_S10000x40_1_0_0_1_n_n.lhsNonContracting by decide)]
  rfl
theorem lhs_1 (i : S10000x40.Idx) (q : dot_S10000x128_S128x40_S10000x40_1_0_0_1_n_n.contr.Idx) : (dot_S10000x128_S128x40_S10000x40_1_0_0_1_n_n.lhsIdx i q 1).val = (q ⟨0, by decide⟩).val :=
  dot_S10000x128_S128x40_S10000x40_1_0_0_1_n_n.lhsIdx_val_of_single rfl i q
theorem rhs_0 (i : S10000x40.Idx) (q : dot_S10000x128_S128x40_S10000x40_1_0_0_1_n_n.contr.Idx) : (dot_S10000x128_S128x40_S10000x40_1_0_0_1_n_n.rhsIdx i q 0).val = (q ⟨0, by decide⟩).val :=
  dot_S10000x128_S128x40_S10000x40_1_0_0_1_n_n.rhsIdx_val_of_single rfl i q
theorem rhs_1 (i : S10000x40.Idx) (q : dot_S10000x128_S128x40_S10000x40_1_0_0_1_n_n.contr.Idx) : (dot_S10000x128_S128x40_S10000x40_1_0_0_1_n_n.rhsIdx i q 1).val = (i 1).val := by
  unfold DotDims.rhsIdx
  rw [dif_neg (show ¬(1 : Fin S128x40.rank) ∈ dot_S10000x128_S128x40_S10000x40_1_0_0_1_n_n.rhsBatch by decide), dif_pos (show (1 : Fin S128x40.rank) ∈ dot_S10000x128_S128x40_S10000x40_1_0_0_1_n_n.rhsNonContracting by decide)]
  rfl

/-! ## One block -/

/-- Entry (p, q) of what the body stores: the positive part of row p of the hidden block times column q of the
    classifier matrix, plus the bias row's entry. -/
theorem pay_at (x0 : Vec Ideal S10000x128 .f32) (x1 : Vec Ideal S128x40 .bf16) (x2 : Vec Ideal S1x40 .f32)
    (p : Fin 10000) (q : Fin 40) :
    k4_pay1 x0 x1 x2 (ix2 p q) = (∑ k : Fin 128, max (x0 (ix2 p k)) zeroWord * x1 (ix2 k q)) + x2 (ix2 (0 : Fin 1) q) := by
  unfold k4_pay1
  simp only [shapeCast_self]
  have hb : broadcastTo S10000x40 x2 broadcasts_S1x40_S10000x40 (ix2 p q) = x2 (ix2 (0 : Fin 1) q) :=
    broadcastTo_apply x2 _ (ix2 p q) (ix2 (0 : Fin 1) q) fun a => match a with
      | ⟨0, _⟩ => by show 0 = if (1 : Nat) = 1 then 0 else p.val; rw [if_pos rfl]
      | ⟨1, _⟩ => by show q.val = if (40 : Nat) = 1 then 0 else q.val; rw [if_neg (by decide)]
  show FloatOps.matmul dot_S10000x128_S128x40_S10000x40_1_0_0_1_n_n none
        (truncf .bf16 (maximumf x0 (broadcast S10000x128 (FloatOps.ofBits (F := Ideal) .f32 0x00000000#32))) bitsLt_bf16_f32) x1
        (constant (F := Ideal) S10000x40 .f32 0x00000000#32) (ix2 p q)
      + broadcastTo S10000x40 x2 broadcasts_S1x40_S10000x40 (ix2 p q) = _
  rw [MatmulAt.matmul_zero_at dot_S10000x128_S128x40_S10000x40_1_0_0_1_n_n rfl rfl lhs_0 lhs_1 rhs_0 rhs_1, hb]
  rfl

/-! ## The index maps, decided over the ten grid points -/

theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the biased product of the rectified hidden states and the classifier
    matrix the region was entered with. -/
theorem flushed_eq (c : Dev nD) (t : Fin cfg4.N) :
    (dat4 V c).flushed 3 t = ((cfg4.win 3).blk t).view.read (Elt Ideal)
      (addRow (matProd (rectify (V c main_v44)) (V c main_v45)) (V c main_v46)) := by
  show (cfg4.win 3).cut (grid4.coords t) ((dat4 V c).after 3 t) = _
  rw [after4_3]
  unfold out4_3
  rw [View.canon_unit_zero hz]
  simp only [View.ld_unit_zero (S := S10000x128) hz, View.ld_unit_zero (S := S128x40) hz, View.ld_unit_zero (S := S1x40) hz]
  obtain ⟨e00, e01, e10, e11, e20, e21, e30, e31⟩ := idx_facts t
  have ht : t.val < 10 := Nat.lt_of_lt_of_eq t.isLt N_4
  funext j
  show k4_pay1 (iblk4 V c 0 t) (iblk4 V c 1 t) (iblk4 V c 2 t) j
    = addRow (matProd (rectify (V c main_v44)) (V c main_v45)) (V c main_v46) (((cfg4.win 3).blk t).view.emb j)
  obtain ⟨p, q, rfl⟩ : ∃ (p : Fin 10000) (q : Fin 40), j = ix2 p q := ⟨j 0, j 1, eq_ix2 j⟩
  have hp : 10000 * t.val + p.val < 100000 := by have := p.isLt; omega
  refine (pay_at (iblk4 V c 0 t) (iblk4 V c 1 t) (iblk4 V c 2 t) p q).trans ?_
  have he : ((cfg4.win 3).blk t).view.emb (ix2 p q) = ix2 (⟨10000 * t.val + p.val, hp⟩ : Fin 100000) q :=
    funext fun a => Fin.ext (by
      match a with
      | ⟨0, _⟩ => show win4_3.index t (0 : Fin 2) * 10000 + 1 * p.val = 10000 * t.val + p.val; rw [e30]; omega
      | ⟨1, _⟩ => show win4_3.index t (1 : Fin 2) * 40 + 1 * q.val = q.val; rw [e31]; omega)
  rw [he, addRow_at, matProd_at]
  have h0 : ∀ k : Fin 128, iblk4 V c 0 t (ix2 p k) = V c main_v44 (ix2 (⟨10000 * t.val + p.val, hp⟩ : Fin 100000) k) := fun k => by
    show V c main_v44 (((cfg4.win 0).blk t).view.emb (ix2 p k)) = _
    refine congrArg (V c main_v44) (funext fun a => Fin.ext ?_)
    match a with
    | ⟨0, _⟩ => show win4_0.index t (0 : Fin 2) * 10000 + 1 * p.val = 10000 * t.val + p.val; rw [e00]; omega
    | ⟨1, _⟩ => show win4_0.index t (1 : Fin 2) * 128 + 1 * k.val = k.val; rw [e01]; omega
  have h1 : ∀ k : Fin 128, iblk4 V c 1 t (ix2 k q) = V c main_v45 (ix2 k q) := fun k => by
    show V c main_v45 (((cfg4.win 1).blk t).view.emb (ix2 k q)) = _
    refine congrArg (V c main_v45) (funext fun a => Fin.ext ?_)
    match a with
    | ⟨0, _⟩ => show win4_1.index t (0 : Fin 2) * 128 + 1 * k.val = k.val; rw [e10]; omega
    | ⟨1, _⟩ => show win4_1.index t (1 : Fin 2) * 40 + 1 * q.val = q.val; rw [e11]; omega
  have h2 : iblk4 V c 2 t (ix2 (0 : Fin 1) q) = V c main_v46 (ix2 (0 : Fin 1) q) := by
    show V c main_v46 (((cfg4.win 2).blk t).view.emb (ix2 (0 : Fin 1) q)) = _
    refine congrArg (V c main_v46) (funext fun a => Fin.ext ?_)
    match a with
    | ⟨0, _⟩ => show win4_2.index t (0 : Fin 2) * 1 + 1 * 0 = 0; rw [e20]
    | ⟨1, _⟩ => show win4_2.index t (1 : Fin 2) * 40 + 1 * q.val = q.val; rw [e21]; omega
  rw [h2]
  exact congrArg (· + _) (Finset.sum_congr rfl fun k _ => by rw [h0 k, h1 k]; rfl)

/-- An index of the output array is in point t's block iff each coordinate is in the block's range on its axis. -/
theorem mem_blk (t : Fin cfg4.N) (i : S100000x40.Idx) :
    i ∈ ((cfg4.win 3).blk t).view.set ↔ ∀ a : Fin 2, win4_3.index t a * S10000x40.size a ≤ (i a).val ∧ (i a).val < win4_3.index t a * S10000x40.size a + S10000x40.size a := by
  show i ∈ ((View.whole main_v47).slice (win4_3.rect t)).set ↔ _
  rw [View.set_slice_whole, Rect.mem_set_unit]
  exact Iff.rfl

/-- Every row is in the block of the point its row number divided by 10000 names. -/
theorem cover (i : S100000x40.Idx) : ∃ t : Fin cfg4.N, (cfg4.win 3).flush t = true ∧ i ∈ ((cfg4.win 3).blk t).view.set := by
  have hi0 : (i 0).val < 100000 := (i 0).isLt
  have hi1 : (i 1).val < 40 := (i 1).isLt
  refine ⟨⟨(i 0).val / 10000, by rw [show cfg4.N = 10 from N_4]; omega⟩, flush4_3 _, ?_⟩
  rw [mem_blk]
  obtain ⟨-, -, -, -, -, -, e30, e31⟩ := idx_facts ⟨(i 0).val / 10000, by rw [show cfg4.N = 10 from N_4]; omega⟩
  intro a
  match a with
  | ⟨0, _⟩ =>
    show win4_3.index _ (0 : Fin 2) * 10000 ≤ (i 0).val ∧ (i 0).val < win4_3.index _ (0 : Fin 2) * 10000 + 10000
    rw [e30]; show (i 0).val / 10000 * 10000 ≤ (i 0).val ∧ (i 0).val < (i 0).val / 10000 * 10000 + 10000; omega
  | ⟨1, _⟩ =>
    show win4_3.index _ (1 : Fin 2) * 40 ≤ (i 1).val ∧ (i 1).val < win4_3.index _ (1 : Fin 2) * 40 + 40
    rw [e31]; omega

/-- The array the region leaves: the rectified hidden states it was entered with times the classifier matrix, the
    bias row added. -/
theorem arr (c : Dev nD) :
    (dat4 V c).arrAt 3 cfg4.N = addRow (matProd (rectify (V c main_v44)) (V c main_v45)) (V c main_v46) :=
  (dat4 V c).arrAt_eq_of_cover 3 _ (fun t _ => flushed_eq V c t) cover

end Cert.KernelIdeal.Region4

end
-- ==== Proof.Chain.lean ====
/-
  The value the idealized program computes, as one composition.

  From the edge lists the program forms two degree columns (the reciprocal square root of each node's out- and
  in-degree, at least one) and, for a node array `t`, the aggregate `∑ over edges (s → d) of t[s]` (a gather along
  the sources followed by a scatter-add along the destinations). A layer is: multiply by the weights, scale the rows
  by the source column, aggregate, scale the rows by the destination column, add the bias row. The first layer is
  followed by the rectifier, and the classifier multiplies the rectified second layer by its matrix and adds its
  bias row. The gather, the scatter-add, the reciprocal square root and the broadcasts are carried as the host
  operations they are; the dense stages are the functions of `Cert.GraphConv`.
-/
import proofs.«133455_j75127567942075_1_alg».proof.Proof.Gen.KernelIdeal
import proofs.«133455_j75127567942075_1_alg».proof.Proof.Spec

noncomputable section

namespace Cert.KernelIdeal.Chain

open Cert.KernelIdeal Cert.KernelIdeal.Gen Cert.GraphConv
open Idealize.ShloMosaic Idealize.ShloMosaic.TcCoe Idealize.SL.Sem

/-- The degree column of an edge-endpoint list: for each node the reciprocal square root of the number of edges
    that name it, or of one if there are none, as a [100000 × 1] column. -/
def degNorm (e : IVec S1600000 32) : FVec Ideal S100000x1 .f32 :=
  broadcastInDim S100000x1 ![0] bcast_S100000_S100000x1_0
    (Host.rsqrt (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 e)
        (broadcastInDim S1600000 ![] bcast_S_S1600000 (constant S_ .f32 0x3F800000#32)))
      (broadcastInDim S100000 ![] bcast_S_S100000 (constant S_ .f32 0x3F800000#32))))

/-- The source list as gather indices: a negative entry counts from the end. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The aggregate of a node array along the edges: row d of the result is the sum of the rows `t[src e]` over the
    edges e with `dst e = d`. -/
def aggregate (t : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 t (srcIdx src))

/-- A bias vector as a [1 × 128] row. -/
def biasRow (b : FVec Ideal S128 .f32) : FVec Ideal S1x128 .f32 := broadcastInDim S1x128 ![1] bcast_S128_S1x128_1 b

/-- The classifier's bias vector as a [1 × 40] row. -/
def biasRowC (b : FVec Ideal S40 .f32) : FVec Ideal S1x40 .f32 := broadcastInDim S1x40 ![1] bcast_S40_S1x40_1 b

variable (x : FVec Ideal S100000x256 .f32) (src dst : IVec S1600000 32) (w0 : FVec Ideal S256x128 .f32)
  (b0 : FVec Ideal S128 .f32) (w1 : FVec Ideal S128x128 .f32) (b1 : FVec Ideal S128 .f32)
  (wc : FVec Ideal S128x40 .f32) (bc : FVec Ideal S40 .f32)

/-- The first layer's transform: the features times the weights, rows scaled by the source column. -/
def t0 : FVec Ideal S100000x128 .f32 := scaleRows (matProd x w0) (degNorm src)
/-- The first layer's output, rectified. -/
def h0 : FVec Ideal S100000x128 .f32 :=
  rectify (addRow (scaleRows (aggregate (t0 x src w0) src dst) (degNorm dst)) (biasRow b0))
/-- The second layer's transform. -/
def t1 : FVec Ideal S100000x128 .f32 := scaleRows (matProd (h0 x src dst w0 b0) w1) (degNorm src)
/-- The second layer's output: the program's first result. -/
def h1 : FVec Ideal S100000x128 .f32 :=
  addRow (scaleRows (aggregate (t1 x src dst w0 b0 w1) src dst) (degNorm dst)) (biasRow b1)
/-- The logits: the program's second result. -/
def logits : FVec Ideal S100000x40 .f32 :=
  addRow (matProd (rectify (h1 x src dst w0 b0 w1 b1)) wc) (biasRowC bc)

end Cert.KernelIdeal.Chain

end
-- ==== Proof.Host.lean ====
/-
  The host stretches between the pipelined regions, read at a buffer.

  Each stretch is a short line of host operations. Run from any contents `W` of the buffers, it leaves each buffer it
  writes at the operations' composed value of what `W` held, and every other buffer as it was. The values are the
  pieces of `Cert.KernelIdeal.Chain`: the degree columns and the two narrowed operands before the first region, an
  aggregate and a bias row before each layer's second region, and narrowed operands before the second transform and
  the classifier (a narrowing is the identity on extended reals).
-/
import proofs.«133455_j75127567942075_1_alg».proof.Proof.Gen.KernelIdeal.Launch
import proofs.«133455_j75127567942075_1_alg».proof.Proof.Chain
import Idealize.ShloMosaic.Lib.StableHlo.Run

set_option maxRecDepth 16384

noncomputable section

namespace Cert.KernelIdeal.Host

open Cert.KernelIdeal Cert.KernelIdeal.Gen Cert.KernelIdeal.Chain Cert.GraphConv
open Idealize.ShloMosaic Idealize.ShloMosaic.TcCoe Idealize.SL.Sem Idealize.ShloMosaic.StableHlo

variable (W : Valuation τ sig (Elt Ideal))

/-- A narrowing of the format is the identity on extended reals. -/
theorem truncf_eq {s : Shape} {φ ψ : FTy} (a : FVec Ideal s φ) (h : ψ.bits < φ.bits) :
    ((truncf ψ a h : FVec Ideal s ψ) : s.Idx → EReal) = a := rfl

/-! ## Before the first region -/

theorem pre0_v13 : after (hostOps0 (F := Ideal)) W (Proc.devRef .tc main_v13) = degNorm (W (Proc.devRef .tc main_arg1)) := by
  after_results; rfl
theorem pre0_v14 : after (hostOps0 (F := Ideal)) W (Proc.devRef .tc main_v14) = degNorm (W (Proc.devRef .tc main_arg2)) := by
  after_results; rfl
theorem pre0_v15 : (after (hostOps0 (F := Ideal)) W (Proc.devRef .tc main_v15) : S100000x256.Idx → EReal) = W (Proc.devRef .tc main_arg0) := by
  after_results; rfl
theorem pre0_v16 : (after (hostOps0 (F := Ideal)) W (Proc.devRef .tc main_v16) : S256x128.Idx → EReal) = W (Proc.devRef .tc main_arg3) := by
  after_results; rfl
theorem pre0_arg1 : after (hostOps0 (F := Ideal)) W (Proc.devRef .tc main_arg1) = W (Proc.devRef .tc main_arg1) := by
  after_results
theorem pre0_arg2 : after (hostOps0 (F := Ideal)) W (Proc.devRef .tc main_arg2) = W (Proc.devRef .tc main_arg2) := by
  after_results
theorem pre0_arg4 : after (hostOps0 (F := Ideal)) W (Proc.devRef .tc main_arg4) = W (Proc.devRef .tc main_arg4) := by
  after_results
theorem pre0_arg5 : after (hostOps0 (F := Ideal)) W (Proc.devRef .tc main_arg5) = W (Proc.devRef .tc main_arg5) := by
  after_results
theorem pre0_arg6 : after (hostOps0 (F := Ideal)) W (Proc.devRef .tc main_arg6) = W (Proc.devRef .tc main_arg6) := by
  after_results
theorem pre0_arg7 : after (hostOps0 (F := Ideal)) W (Proc.devRef .tc main_arg7) = W (Proc.devRef .tc main_arg7) := by
  after_results
theorem pre0_arg8 : after (hostOps0 (F := Ideal)) W (Proc.devRef .tc main_arg8) = W (Proc.devRef .tc main_arg8) := by
  after_results

/-! ## Between the first and the second region -/

theorem pre1_v27 : after (hostOps1 (F := Ideal)) W (Proc.devRef .tc main_v27)
    = aggregate (W (Proc.devRef .tc main_v17)) (W (Proc.devRef .tc main_arg1)) (W (Proc.devRef .tc main_arg2)) := by
  after_results; rfl
theorem pre1_v28 : after (hostOps1 (F := Ideal)) W (Proc.devRef .tc main_v28) = biasRow (W (Proc.devRef .tc main_arg4)) := by
  after_results; rfl
theorem pre1_v13 : after (hostOps1 (F := Ideal)) W (Proc.devRef .tc main_v13) = W (Proc.devRef .tc main_v13) := by
  after_results
theorem pre1_v14 : after (hostOps1 (F := Ideal)) W (Proc.devRef .tc main_v14) = W (Proc.devRef .tc main_v14) := by
  after_results
theorem pre1_arg1 : after (hostOps1 (F := Ideal)) W (Proc.devRef .tc main_arg1) = W (Proc.devRef .tc main_arg1) := by
  after_results
theorem pre1_arg2 : after (hostOps1 (F := Ideal)) W (Proc.devRef .tc main_arg2) = W (Proc.devRef .tc main_arg2) := by
  after_results
theorem pre1_arg5 : after (hostOps1 (F := Ideal)) W (Proc.devRef .tc main_arg5) = W (Proc.devRef .tc main_arg5) := by
  after_results
theorem pre1_arg6 : after (hostOps1 (F := Ideal)) W (Proc.devRef .tc main_arg6) = W (Proc.devRef .tc main_arg6) := by
  after_results
theorem pre1_arg7 : after (hostOps1 (F := Ideal)) W (Proc.devRef .tc main_arg7) = W (Proc.devRef .tc main_arg7) := by
  after_results
theorem pre1_arg8 : after (hostOps1 (F := Ideal)) W (Proc.devRef .tc main_arg8) = W (Proc.devRef .tc main_arg8) := by
  after_results

/-! ## Between the second and the third region -/

theorem pre2_v30 : (after (hostOps2 (F := Ideal)) W (Proc.devRef .tc main_v30) : S100000x128.Idx → EReal) = W (Proc.devRef .tc main_v29) := by
  after_results; rfl
theorem pre2_v31 : (after (hostOps2 (F := Ideal)) W (Proc.devRef .tc main_v31) : S128x128.Idx → EReal) = W (Proc.devRef .tc main_arg5) := by
  after_results; rfl
theorem pre2_v13 : after (hostOps2 (F := Ideal)) W (Proc.devRef .tc main_v13) = W (Proc.devRef .tc main_v13) := by
  after_results
theorem pre2_v14 : after (hostOps2 (F := Ideal)) W (Proc.devRef .tc main_v14) = W (Proc.devRef .tc main_v14) := by
  after_results
theorem pre2_arg1 : after (hostOps2 (F := Ideal)) W (Proc.devRef .tc main_arg1) = W (Proc.devRef .tc main_arg1) := by
  after_results
theorem pre2_arg2 : after (hostOps2 (F := Ideal)) W (Proc.devRef .tc main_arg2) = W (Proc.devRef .tc main_arg2) := by
  after_results
theorem pre2_arg6 : after (hostOps2 (F := Ideal)) W (Proc.devRef .tc main_arg6) = W (Proc.devRef .tc main_arg6) := by
  after_results
theorem pre2_arg7 : after (hostOps2 (F := Ideal)) W (Proc.devRef .tc main_arg7) = W (Proc.devRef .tc main_arg7) := by
  after_results
theorem pre2_arg8 : after (hostOps2 (F := Ideal)) W (Proc.devRef .tc main_arg8) = W (Proc.devRef .tc main_arg8) := by
  after_results

/-! ## Between the third and the fourth region -/

theorem pre3_v42 : after (hostOps3 (F := Ideal)) W (Proc.devRef .tc main_v42)
    = aggregate (W (Proc.devRef .tc main_v32)) (W (Proc.devRef .tc main_arg1)) (W (Proc.devRef .tc main_arg2)) := by
  after_results; rfl
theorem pre3_v43 : after (hostOps3 (F := Ideal)) W (Proc.devRef .tc main_v43) = biasRow (W (Proc.devRef .tc main_arg6)) := by
  after_results; rfl
theorem pre3_v14 : after (hostOps3 (F := Ideal)) W (Proc.devRef .tc main_v14) = W (Proc.devRef .tc main_v14) := by
  after_results
theorem pre3_arg7 : after (hostOps3 (F := Ideal)) W (Proc.devRef .tc main_arg7) = W (Proc.devRef .tc main_arg7) := by
  after_results
theorem pre3_arg8 : after (hostOps3 (F := Ideal)) W (Proc.devRef .tc main_arg8) = W (Proc.devRef .tc main_arg8) := by
  after_results

/-! ## Between the fourth and the last region -/

theorem pre4_v45 : (after (hostOps4 (F := Ideal)) W (Proc.devRef .tc main_v45) : S128x40.Idx → EReal) = W (Proc.devRef .tc main_arg7) := by
  after_results; rfl
theorem pre4_v46 : after (hostOps4 (F := Ideal)) W (Proc.devRef .tc main_v46) = biasRowC (W (Proc.devRef .tc main_arg8)) := by
  after_results; rfl
theorem pre4_v44 : after (hostOps4 (F := Ideal)) W (Proc.devRef .tc main_v44) = W (Proc.devRef .tc main_v44) := by
  after_results

end Cert.KernelIdeal.Host

end
-- ==== Proof.Fold.lean ====
/-
  The program's buffers at each boundary between its stretches and regions, read back to the arguments.

  The run's contents at the ten boundaries form a fold from the launch memory: a host stretch applies its operations,
  a region leaves its output array at what its write-backs leave and every other buffer as it was entered. Walking the
  fold boundary by boundary, each buffer a later stage reads is one of the stages of `Cert.KernelIdeal.Chain` of the
  nine arguments: the degree columns, then the first transform, its aggregate, the rectified first layer, the second
  transform, its aggregate, the second layer, and the logits. An input array of a region, and any buffer a stretch or
  region does not write, is carried across unchanged.
-/
import proofs.«133455_j75127567942075_1_alg».proof.Proof.Gen.KernelIdeal.Frame
import proofs.«133455_j75127567942075_1_alg».proof.Proof.Region0
import proofs.«133455_j75127567942075_1_alg».proof.Proof.Region1
import proofs.«133455_j75127567942075_1_alg».proof.Proof.Region2
import proofs.«133455_j75127567942075_1_alg».proof.Proof.Region3
import proofs.«133455_j75127567942075_1_alg».proof.Proof.Region4
import proofs.«133455_j75127567942075_1_alg».proof.Proof.Host
import proofs.«133455_j75127567942075_1_alg».proof.Proof.Chain

set_option maxRecDepth 16384

noncomputable section

namespace Cert.KernelIdeal.Fold

open Cert.KernelIdeal Cert.KernelIdeal.Gen Cert.KernelIdeal.Chain Cert.GraphConv
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The nine arguments as launched -/

abbrev aX : FVec Ideal S100000x256 .f32 := m ((c : Thread nD τ).loc main_arg0)
abbrev aSrc : IVec S1600000 32 := m ((c : Thread nD τ).loc main_arg1)
abbrev aDst : IVec S1600000 32 := m ((c : Thread nD τ).loc main_arg2)
abbrev aW0 : FVec Ideal S256x128 .f32 := m ((c : Thread nD τ).loc main_arg3)
abbrev aB0 : FVec Ideal S128 .f32 := m ((c : Thread nD τ).loc main_arg4)
abbrev aW1 : FVec Ideal S128x128 .f32 := m ((c : Thread nD τ).loc main_arg5)
abbrev aB1 : FVec Ideal S128 .f32 := m ((c : Thread nD τ).loc main_arg6)
abbrev aWc : FVec Ideal S128x40 .f32 := m ((c : Thread nD τ).loc main_arg7)
abbrev aBc : FVec Ideal S40 .f32 := m ((c : Thread nD τ).loc main_arg8)

/-- The first transform of the arguments. -/
abbrev T0 : FVec Ideal S100000x128 .f32 := t0 (aX m c) (aSrc m c) (aW0 m c)
/-- The rectified first layer of the arguments. -/
abbrev H0 : FVec Ideal S100000x128 .f32 := h0 (aX m c) (aSrc m c) (aDst m c) (aW0 m c) (aB0 m c)
/-- The second transform of the arguments. -/
abbrev T1 : FVec Ideal S100000x128 .f32 := t1 (aX m c) (aSrc m c) (aDst m c) (aW0 m c) (aB0 m c) (aW1 m c)
/-- The second layer of the arguments. -/
abbrev H1 : FVec Ideal S100000x128 .f32 := h1 (aX m c) (aSrc m c) (aDst m c) (aW0 m c) (aB0 m c) (aW1 m c) (aB1 m c)
/-- The logits of the arguments. -/
abbrev LG : FVec Ideal S100000x40 .f32 := logits (aX m c) (aSrc m c) (aDst m c) (aW0 m c) (aB0 m c) (aW1 m c) (aB1 m c) (aWc m c) (aBc m c)

/-! ## At the first region's entry -/

theorem at1_v13 : W1 m ρ c (Proc.devRef .tc main_v13) = degNorm (aSrc m c) := Host.pre0_v13 (W0 m ρ c)
theorem at1_v14 : W1 m ρ c (Proc.devRef .tc main_v14) = degNorm (aDst m c) := Host.pre0_v14 (W0 m ρ c)
theorem at1_v15 : (W1 m ρ c (Proc.devRef .tc main_v15) : S100000x256.Idx → EReal) = aX m c := Host.pre0_v15 (W0 m ρ c)
theorem at1_v16 : (W1 m ρ c (Proc.devRef .tc main_v16) : S256x128.Idx → EReal) = aW0 m c := Host.pre0_v16 (W0 m ρ c)
theorem at1_arg1 : W1 m ρ c (Proc.devRef .tc main_arg1) = aSrc m c := Host.pre0_arg1 (W0 m ρ c)
theorem at1_arg2 : W1 m ρ c (Proc.devRef .tc main_arg2) = aDst m c := Host.pre0_arg2 (W0 m ρ c)
theorem at1_arg4 : W1 m ρ c (Proc.devRef .tc main_arg4) = aB0 m c := Host.pre0_arg4 (W0 m ρ c)
theorem at1_arg5 : W1 m ρ c (Proc.devRef .tc main_arg5) = aW1 m c := Host.pre0_arg5 (W0 m ρ c)
theorem at1_arg6 : W1 m ρ c (Proc.devRef .tc main_arg6) = aB1 m c := Host.pre0_arg6 (W0 m ρ c)
theorem at1_arg7 : W1 m ρ c (Proc.devRef .tc main_arg7) = aWc m c := Host.pre0_arg7 (W0 m ρ c)
theorem at1_arg8 : W1 m ρ c (Proc.devRef .tc main_arg8) = aBc m c := Host.pre0_arg8 (W0 m ρ c)

/-! ## At the first region's exit -/

theorem at2_v17 : W2 m ρ c (Proc.devRef .tc main_v17) = T0 m c := by
  refine (W2_arr m ρ c 3).trans ((Region0.arr (V1 m ρ) c).trans ?_)
  show scaleRows (matProd (W1 m ρ c (Proc.devRef .tc main_v15) : S100000x256.Idx → EReal) (W1 m ρ c (Proc.devRef .tc main_v16) : S256x128.Idx → EReal)) (W1 m ρ c (Proc.devRef .tc main_v13)) = _
  rw [at1_v15, at1_v16, at1_v13]
  rfl
theorem at2_v13 : W2 m ρ c (Proc.devRef .tc main_v13) = degNorm (aSrc m c) :=
  (W2_arr m ρ c 2).trans (((dat0 (V1 m ρ) c).arrAt_in 2 rfl _).trans ((A_eq0 (V1 m ρ) c 2).trans (at1_v13 m ρ c)))
theorem at2_v14 : W2 m ρ c (Proc.devRef .tc main_v14) = degNorm (aDst m c) := (W2_of_ne m ρ c main_v14 (by decide)).trans (at1_v14 m ρ c)
theorem at2_arg1 : W2 m ρ c (Proc.devRef .tc main_arg1) = aSrc m c := (W2_of_ne m ρ c main_arg1 (by decide)).trans (at1_arg1 m ρ c)
theorem at2_arg2 : W2 m ρ c (Proc.devRef .tc main_arg2) = aDst m c := (W2_of_ne m ρ c main_arg2 (by decide)).trans (at1_arg2 m ρ c)
theorem at2_arg4 : W2 m ρ c (Proc.devRef .tc main_arg4) = aB0 m c := (W2_of_ne m ρ c main_arg4 (by decide)).trans (at1_arg4 m ρ c)
theorem at2_arg5 : W2 m ρ c (Proc.devRef .tc main_arg5) = aW1 m c := (W2_of_ne m ρ c main_arg5 (by decide)).trans (at1_arg5 m ρ c)
theorem at2_arg6 : W2 m ρ c (Proc.devRef .tc main_arg6) = aB1 m c := (W2_of_ne m ρ c main_arg6 (by decide)).trans (at1_arg6 m ρ c)
theorem at2_arg7 : W2 m ρ c (Proc.devRef .tc main_arg7) = aWc m c := (W2_of_ne m ρ c main_arg7 (by decide)).trans (at1_arg7 m ρ c)
theorem at2_arg8 : W2 m ρ c (Proc.devRef .tc main_arg8) = aBc m c := (W2_of_ne m ρ c main_arg8 (by decide)).trans (at1_arg8 m ρ c)

/-! ## At the second region's entry -/

theorem at3_v27 : W3 m ρ c (Proc.devRef .tc main_v27) = aggregate (T0 m c) (aSrc m c) (aDst m c) := by
  refine (Host.pre1_v27 (W2 m ρ c)).trans ?_
  rw [at2_v17, at2_arg1, at2_arg2]
theorem at3_v28 : W3 m ρ c (Proc.devRef .tc main_v28) = biasRow (aB0 m c) := by
  refine (Host.pre1_v28 (W2 m ρ c)).trans ?_
  rw [at2_arg4]
theorem at3_v13 : W3 m ρ c (Proc.devRef .tc main_v13) = degNorm (aSrc m c) := (Host.pre1_v13 (W2 m ρ c)).trans (at2_v13 m ρ c)
theorem at3_v14 : W3 m ρ c (Proc.devRef .tc main_v14) = degNorm (aDst m c) := (Host.pre1_v14 (W2 m ρ c)).trans (at2_v14 m ρ c)
theorem at3_arg1 : W3 m ρ c (Proc.devRef .tc main_arg1) = aSrc m c := (Host.pre1_arg1 (W2 m ρ c)).trans (at2_arg1 m ρ c)
theorem at3_arg2 : W3 m ρ c (Proc.devRef .tc main_arg2) = aDst m c := (Host.pre1_arg2 (W2 m ρ c)).trans (at2_arg2 m ρ c)
theorem at3_arg5 : W3 m ρ c (Proc.devRef .tc main_arg5) = aW1 m c := (Host.pre1_arg5 (W2 m ρ c)).trans (at2_arg5 m ρ c)
theorem at3_arg6 : W3 m ρ c (Proc.devRef .tc main_arg6) = aB1 m c := (Host.pre1_arg6 (W2 m ρ c)).trans (at2_arg6 m ρ c)
theorem at3_arg7 : W3 m ρ c (Proc.devRef .tc main_arg7) = aWc m c := (Host.pre1_arg7 (W2 m ρ c)).trans (at2_arg7 m ρ c)
theorem at3_arg8 : W3 m ρ c (Proc.devRef .tc main_arg8) = aBc m c := (Host.pre1_arg8 (W2 m ρ c)).trans (at2_arg8 m ρ c)

/-! ## At the second region's exit -/

theorem at4_v29 : W4 m ρ c (Proc.devRef .tc main_v29) = H0 m c := by
  refine (W4_arr m ρ c 3).trans ((Region1.arr (V3 m ρ) c).trans ?_)
  show rectify (addRow (scaleRows (W3 m ρ c (Proc.devRef .tc main_v27)) (W3 m ρ c (Proc.devRef .tc main_v14))) (W3 m ρ c (Proc.devRef .tc main_v28))) = _
  rw [at3_v27, at3_v14, at3_v28]
  rfl
theorem at4_v14 : W4 m ρ c (Proc.devRef .tc main_v14) = degNorm (aDst m c) :=
  (W4_arr m ρ c 1).trans (((dat1 (V3 m ρ) c).arrAt_in 1 rfl _).trans ((A_eq1 (V3 m ρ) c 1).trans (at3_v14 m ρ c)))
theorem at4_v13 : W4 m ρ c (Proc.devRef .tc main_v13) = degNorm (aSrc m c) := (W4_of_ne m ρ c main_v13 (by decide)).trans (at3_v13 m ρ c)
theorem at4_arg1 : W4 m ρ c (Proc.devRef .tc main_arg1) = aSrc m c := (W4_of_ne m ρ c main_arg1 (by decide)).trans (at3_arg1 m ρ c)
theorem at4_arg2 : W4 m ρ c (Proc.devRef .tc main_arg2) = aDst m c := (W4_of_ne m ρ c main_arg2 (by decide)).trans (at3_arg2 m ρ c)
theorem at4_arg5 : W4 m ρ c (Proc.devRef .tc main_arg5) = aW1 m c := (W4_of_ne m ρ c main_arg5 (by decide)).trans (at3_arg5 m ρ c)
theorem at4_arg6 : W4 m ρ c (Proc.devRef .tc main_arg6) = aB1 m c := (W4_of_ne m ρ c main_arg6 (by decide)).trans (at3_arg6 m ρ c)
theorem at4_arg7 : W4 m ρ c (Proc.devRef .tc main_arg7) = aWc m c := (W4_of_ne m ρ c main_arg7 (by decide)).trans (at3_arg7 m ρ c)
theorem at4_arg8 : W4 m ρ c (Proc.devRef .tc main_arg8) = aBc m c := (W4_of_ne m ρ c main_arg8 (by decide)).trans (at3_arg8 m ρ c)

/-! ## At the third region's entry -/

theorem at5_v30 : (W5 m ρ c (Proc.devRef .tc main_v30) : S100000x128.Idx → EReal) = H0 m c :=
  (Host.pre2_v30 (W4 m ρ c)).trans (at4_v29 m ρ c)
theorem at5_v31 : (W5 m ρ c (Proc.devRef .tc main_v31) : S128x128.Idx → EReal) = aW1 m c :=
  (Host.pre2_v31 (W4 m ρ c)).trans (at4_arg5 m ρ c)
theorem at5_v13 : W5 m ρ c (Proc.devRef .tc main_v13) = degNorm (aSrc m c) := (Host.pre2_v13 (W4 m ρ c)).trans (at4_v13 m ρ c)
theorem at5_v14 : W5 m ρ c (Proc.devRef .tc main_v14) = degNorm (aDst m c) := (Host.pre2_v14 (W4 m ρ c)).trans (at4_v14 m ρ c)
theorem at5_arg1 : W5 m ρ c (Proc.devRef .tc main_arg1) = aSrc m c := (Host.pre2_arg1 (W4 m ρ c)).trans (at4_arg1 m ρ c)
theorem at5_arg2 : W5 m ρ c (Proc.devRef .tc main_arg2) = aDst m c := (Host.pre2_arg2 (W4 m ρ c)).trans (at4_arg2 m ρ c)
theorem at5_arg6 : W5 m ρ c (Proc.devRef .tc main_arg6) = aB1 m c := (Host.pre2_arg6 (W4 m ρ c)).trans (at4_arg6 m ρ c)
theorem at5_arg7 : W5 m ρ c (Proc.devRef .tc main_arg7) = aWc m c := (Host.pre2_arg7 (W4 m ρ c)).trans (at4_arg7 m ρ c)
theorem at5_arg8 : W5 m ρ c (Proc.devRef .tc main_arg8) = aBc m c := (Host.pre2_arg8 (W4 m ρ c)).trans (at4_arg8 m ρ c)

/-! ## At the third region's exit -/

theorem at6_v32 : W6 m ρ c (Proc.devRef .tc main_v32) = T1 m c := by
  refine (W6_arr m ρ c 3).trans ((Region2.arr (V5 m ρ) c).trans ?_)
  show scaleRows (matProd (W5 m ρ c (Proc.devRef .tc main_v30) : S100000x128.Idx → EReal) (W5 m ρ c (Proc.devRef .tc main_v31) : S128x128.Idx → EReal)) (W5 m ρ c (Proc.devRef .tc main_v13)) = _
  rw [at5_v30, at5_v31, at5_v13]
  rfl
theorem at6_v14 : W6 m ρ c (Proc.devRef .tc main_v14) = degNorm (aDst m c) := (W6_of_ne m ρ c main_v14 (by decide)).trans (at5_v14 m ρ c)
theorem at6_arg1 : W6 m ρ c (Proc.devRef .tc main_arg1) = aSrc m c := (W6_of_ne m ρ c main_arg1 (by decide)).trans (at5_arg1 m ρ c)
theorem at6_arg2 : W6 m ρ c (Proc.devRef .tc main_arg2) = aDst m c := (W6_of_ne m ρ c main_arg2 (by decide)).trans (at5_arg2 m ρ c)
theorem at6_arg6 : W6 m ρ c (Proc.devRef .tc main_arg6) = aB1 m c := (W6_of_ne m ρ c main_arg6 (by decide)).trans (at5_arg6 m ρ c)
theorem at6_arg7 : W6 m ρ c (Proc.devRef .tc main_arg7) = aWc m c := (W6_of_ne m ρ c main_arg7 (by decide)).trans (at5_arg7 m ρ c)
theorem at6_arg8 : W6 m ρ c (Proc.devRef .tc main_arg8) = aBc m c := (W6_of_ne m ρ c main_arg8 (by decide)).trans (at5_arg8 m ρ c)

/-! ## At the fourth region's entry -/

theorem at7_v42 : W7 m ρ c (Proc.devRef .tc main_v42) = aggregate (T1 m c) (aSrc m c) (aDst m c) := by
  refine (Host.pre3_v42 (W6 m ρ c)).trans ?_
  rw [at6_v32, at6_arg1, at6_arg2]
theorem at7_v43 : W7 m ρ c (Proc.devRef .tc main_v43) = biasRow (aB1 m c) := by
  refine (Host.pre3_v43 (W6 m ρ c)).trans ?_
  rw [at6_arg6]
theorem at7_v14 : W7 m ρ c (Proc.devRef .tc main_v14) = degNorm (aDst m c) := (Host.pre3_v14 (W6 m ρ c)).trans (at6_v14 m ρ c)
theorem at7_arg7 : W7 m ρ c (Proc.devRef .tc main_arg7) = aWc m c := (Host.pre3_arg7 (W6 m ρ c)).trans (at6_arg7 m ρ c)
theorem at7_arg8 : W7 m ρ c (Proc.devRef .tc main_arg8) = aBc m c := (Host.pre3_arg8 (W6 m ρ c)).trans (at6_arg8 m ρ c)

/-! ## At the fourth region's exit -/

theorem at8_v44 : W8 m ρ c (Proc.devRef .tc main_v44) = H1 m c := by
  refine (W8_arr m ρ c 3).trans ((Region3.arr (V7 m ρ) c).trans ?_)
  show addRow (scaleRows (W7 m ρ c (Proc.devRef .tc main_v42)) (W7 m ρ c (Proc.devRef .tc main_v14))) (W7 m ρ c (Proc.devRef .tc main_v43)) = _
  rw [at7_v42, at7_v14, at7_v43]
  rfl
theorem at8_arg7 : W8 m ρ c (Proc.devRef .tc main_arg7) = aWc m c := (W8_of_ne m ρ c main_arg7 (by decide)).trans (at7_arg7 m ρ c)
theorem at8_arg8 : W8 m ρ c (Proc.devRef .tc main_arg8) = aBc m c := (W8_of_ne m ρ c main_arg8 (by decide)).trans (at7_arg8 m ρ c)

/-! ## At the last region's entry -/

theorem at9_v44 : W9 m ρ c (Proc.devRef .tc main_v44) = H1 m c := (Host.pre4_v44 (W8 m ρ c)).trans (at8_v44 m ρ c)
theorem at9_v45 : (W9 m ρ c (Proc.devRef .tc main_v45) : S128x40.Idx → EReal) = aWc m c := (Host.pre4_v45 (W8 m ρ c)).trans (at8_arg7 m ρ c)
theorem at9_v46 : W9 m ρ c (Proc.devRef .tc main_v46) = biasRowC (aBc m c) := by
  refine (Host.pre4_v46 (W8 m ρ c)).trans ?_
  rw [at8_arg8]

/-! ## At the return: the two results -/

/-- The second layer's array, which the last region only reads, ends at the second layer of the arguments. -/
theorem result0 : W10 m ρ c (Proc.devRef .tc main_v44) = H1 m c :=
  (W10_arr m ρ c 0).trans (((dat4 (V9 m ρ) c).arrAt_in 0 rfl _).trans ((A_eq4 (V9 m ρ) c 0).trans (at9_v44 m ρ c)))

/-- The last region's output array ends at the logits of the arguments. -/
theorem result1 : W10 m ρ c (Proc.devRef .tc main_v47) = LG m c := by
  refine (W10_arr m ρ c 3).trans ((Region4.arr (V9 m ρ) c).trans ?_)
  show addRow (matProd (rectify (W9 m ρ c (Proc.devRef .tc main_v44))) (W9 m ρ c (Proc.devRef .tc main_v45) : S128x40.Idx → EReal)) (W9 m ρ c (Proc.devRef .tc main_v46)) = _
  rw [at9_v44, at9_v45, at9_v46]
  rfl

end Cert.KernelIdeal.Fold

end
-- ==== Proof.RefBridge.lean ====
/-
  The reference computes the same composition.

  Its run leaves the two results at the host operations' composed terms of the arguments. Rewriting each dense
  operation by its piece — a `dot_general` as the matrix product, a product with a broadcast column as the row scaling,
  a sum with a broadcast row as the bias, a maximum with a broadcast zero as the rectifier — turns those terms into
  the chain of `Cert.KernelIdeal.Chain`: the degree columns, the gathers and the scatter-adds are the same host
  operations on both sides, and the two programs' dimension records for them are the same records.
-/
import proofs.«133455_j75127567942075_1_alg».proof.Proof.Gen.ReferenceIdeal.Run
import proofs.«133455_j75127567942075_1_alg».proof.Proof.Gen.ReferenceIdeal.Read
import proofs.«133455_j75127567942075_1_alg».proof.Proof.Chain
import proofs.«133455_j75127567942075_1_alg».proof.Proof.Spec

set_option maxRecDepth 16384

noncomputable section

namespace Cert.ReferenceIdeal.Bridge

open Cert.ReferenceIdeal Cert.ReferenceIdeal.Gen Cert.GraphConv
open Idealize.ShloMosaic Idealize.ShloMosaic.TcCoe Idealize.SL.Sem

variable (m : (ℓ : Loc nD τ sig) → Buf (Elt Ideal) ℓ) (c : Dev nD)

/-! ## The three matrix products -/

theorem dot0 (x : FVec Ideal S100000x256 .f32) (w : FVec Ideal S256x128 .f32) :
    Host.dotGeneral dot_S100000x256_S256x128_S100000x128_1_0_0_1_n_n none x w = matProd (n := 100000) (K := 256) (M := 128) x w :=
  dotGeneral_eq_matProd (n := 100000) (K := 256) (M := 128) dot_S100000x256_S256x128_S100000x128_1_0_0_1_n_n rfl rfl
    Read.lhs_main_v13_0 Read.lhs_main_v13_1 Read.rhs_main_v13_0 Read.rhs_main_v13_1 none x w

theorem dot1 (x : FVec Ideal S100000x128 .f32) (w : FVec Ideal S128x128 .f32) :
    Host.dotGeneral dot_S100000x128_S128x128_S100000x128_1_0_0_1_n_n none x w = matProd (n := 100000) (K := 128) (M := 128) x w :=
  dotGeneral_eq_matProd (n := 100000) (K := 128) (M := 128) dot_S100000x128_S128x128_S100000x128_1_0_0_1_n_n rfl rfl
    Read.lhs_main_v34_0 Read.lhs_main_v34_1 Read.rhs_main_v34_0 Read.rhs_main_v34_1 none x w

theorem dot2 (x : FVec Ideal S100000x128 .f32) (w : FVec Ideal S128x40 .f32) :
    Host.dotGeneral dot_S100000x128_S128x40_S100000x40_1_0_0_1_n_n none x w = matProd (n := 100000) (K := 128) (M := 40) x w :=
  dotGeneral_eq_matProd (n := 100000) (K := 128) (M := 40) dot_S100000x128_S128x40_S100000x40_1_0_0_1_n_n rfl rfl
    Read.lhs_main_v55_0 Read.lhs_main_v55_1 Read.rhs_main_v55_0 Read.rhs_main_v55_1 none x w

/-! ## The two programs' records of the shared host operations -/

theorem scatterDeg_eq : scatter_S100000_S1600000x1_S1600000_n_0_0_1 = Cert.KernelIdeal.scatter_S100000_S1600000x1_S1600000_n_0_0_1 := rfl
theorem scatterAgg_eq : scatter_S100000x128_S1600000x1_S1600000x128_1_0_0_1 = Cert.KernelIdeal.scatter_S100000x128_S1600000x1_S1600000x128_1_0_0_1 := rfl
theorem gather_eq : gather_S100000x128_S1600000x1_S1600000x128_1_0_n_n_0_1_1128 = Cert.KernelIdeal.gather_S100000x128_S1600000x1_S1600000x128_1_0_n_n_0_1_1128 := rfl

/-! ## The broadcasts, at the reference's shapes -/

theorem scaleCol (a : FVec Ideal S100000x128 .f32) (s : FVec Ideal S100000x1 .f32) :
    mulf a (broadcastInDim S100000x128 ![0, 1] bcast_S100000x1_S100000x128_0_1 s) = scaleRows (n := 100000) (M := 128) a s :=
  mulf_bcastCol (n := 100000) (M := 128) bcast_S100000x1_S100000x128_0_1 a s

theorem plusRow (a : FVec Ideal S100000x128 .f32) (b : FVec Ideal S1x128 .f32) :
    addf a (broadcastInDim S100000x128 ![0, 1] bcast_S1x128_S100000x128_0_1 b) = addRow (n := 100000) (M := 128) a b :=
  addf_bcastRow (n := 100000) (M := 128) bcast_S1x128_S100000x128_0_1 a b

theorem plusRowC (a : FVec Ideal S100000x40 .f32) (b : FVec Ideal S1x40 .f32) :
    addf a (broadcastInDim S100000x40 ![0, 1] bcast_S1x40_S100000x40_0_1 b) = addRow (n := 100000) (M := 40) a b :=
  addf_bcastRow (n := 100000) (M := 40) bcast_S1x40_S100000x40_0_1 a b

theorem relu (v : FVec Ideal S100000x128 .f32) :
    maximumf v (broadcastInDim S100000x128 ![] bcast_S_S100000x128 (constant S_ .f32 0x00000000#32)) = rectify (n := 100000) (M := 128) v :=
  maximumf_bcastZero (n := 100000) (M := 128) bcast_S_S100000x128 v

/-- The reference's first result is the second layer of its arguments. -/
theorem result0 : Value.res_main_v53 m c
    = Cert.KernelIdeal.Chain.h1 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  unfold Value.res_main_v53
  simp only [dot0, dot1]
  repeat rw [plusRow]
  repeat rw [relu]
  repeat rw [scaleCol]
  rfl

/-- The reference's second result is the logits of its arguments. -/
theorem result1 : Value.res_main_v58 m c
    = Cert.KernelIdeal.Chain.logits (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) := by
  unfold Value.res_main_v58
  simp only [dot0, dot1, dot2]
  repeat rw [plusRowC]
  repeat rw [plusRow]
  repeat rw [relu]
  repeat rw [scaleCol]
  rfl

end Cert.ReferenceIdeal.Bridge

end
-- ==== Proof.lean ====
/-
  A two-layer graph convolution with a linear classifier, as five pipelined dense stages around host gathers and
  scatter-adds, against its plain reference: the two compute the same arrays over the extended reals.

  Both programs form the degree columns `c = (max(deg, 1))^(-1/2)` from the edge lists and, per layer,
  `((A · ((h · W) ∘ c_src)) ∘ c_dst) + b`, where `A · t` gathers the rows of `t` along the edge sources and adds them
  into the edge destinations; the first layer is followed by the rectifier, and the logits are `relu(h) · Wc + bc`.
  The kernel program narrows the matrix products' operands to a shorter format first, which is the identity on
  extended reals, and computes each dense stage block by block over ten row blocks; every dense stage depends on a
  row only through that row (and whole small operands), so the blocks assemble to the whole-array stage. The degree
  columns, the gathers and the scatter-adds are the same host operations in both programs, applied to equal arrays.
  No law of the extended reals beyond reading each operation at an index is used: the two sides are the same sums of
  the same products in the same places, so the finiteness of the inputs is never opened.

  The three frames: the two kernel programs' are the generated frame certificates; the reference has no kernel, and
  its frame is its run with the results dropped. The idealization rewrote no operation, so there is nothing to
  preserve. The value claim sets the kernel program's run, its two results named at the last boundary's contents and
  those read back to the arguments (`Fold`), beside the reference's run, its two results rewritten into the same
  chain (`Bridge`).
-/
import proofs.«133455_j75127567942075_1_alg».proof.Defs
import proofs.«133455_j75127567942075_1_alg».proof.Proof.Gen.Kernel
import proofs.«133455_j75127567942075_1_alg».proof.Proof.Gen.Kernel.Skeleton
import proofs.«133455_j75127567942075_1_alg».proof.Proof.Gen.Kernel.Launch
import proofs.«133455_j75127567942075_1_alg».proof.Proof.Gen.Kernel.Points
import proofs.«133455_j75127567942075_1_alg».proof.Proof.Gen.Kernel.Frame
import proofs.«133455_j75127567942075_1_alg».proof.Proof.Gen.KernelIdeal
import proofs.«133455_j75127567942075_1_alg».proof.Proof.Gen.KernelIdeal.Skeleton
import proofs.«133455_j75127567942075_1_alg».proof.Proof.Gen.KernelIdeal.Launch
import proofs.«133455_j75127567942075_1_alg».proof.Proof.Gen.KernelIdeal.Points
import proofs.«133455_j75127567942075_1_alg».proof.Proof.Gen.KernelIdeal.Frame
import proofs.«133455_j75127567942075_1_alg».proof.Proof.Gen.ReferenceIdeal
import proofs.«133455_j75127567942075_1_alg».proof.Proof.Gen.Pre_finite_inputs
import proofs.«133455_j75127567942075_1_alg».proof.Proof.Gen.ReferenceIdeal.Run
import proofs.«133455_j75127567942075_1_alg».proof.Proof.Gen.ReferenceIdeal.Read
import proofs.«133455_j75127567942075_1_alg».proof.Proof.RunNamed
import proofs.«133455_j75127567942075_1_alg».proof.Proof.Fold
import proofs.«133455_j75127567942075_1_alg».proof.Proof.RefBridge
import Idealize.ShloMosaic.Adequacy
import Idealize.ShloMosaic.Init

noncomputable section

namespace Cert.Proof

open Idealize.ShloMosaic Idealize.SL.Sem

/-- The word-level program runs, faults nowhere and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the nine arguments both programs end with the second layer and the logits of those
    arguments in their two result arrays. -/
theorem algebraic : Cert.algebraic_KernelIdeal_ReferenceIdeal := by
  intro m ρ m' ρ' _ hagree
  refine ⟨fun c => Cert.KernelIdeal.Fold.H1 m c, fun c => Cert.KernelIdeal.Fold.LG m c, ?_, ?_⟩
  · exact (θ_run Cert.KernelIdeal.defs _ _).mono
      (fun r h c => ⟨(h c).1.trans (Cert.KernelIdeal.Fold.result0 m ρ c), (h c).2.1.trans (Cert.KernelIdeal.Fold.result1 m ρ c), (h c).2.2⟩)
      (Cert.KernelIdeal.Named.run_named (F := Ideal) m ρ)
  · refine (θ_run Cert.ReferenceIdeal.defs _ _).mono (fun r h c => ?_) (Cert.ReferenceIdeal.Value.run (F := Ideal) m' ρ')
    obtain ⟨e0, e1, e2, e3, e4, e5, e6, e7, e8⟩ := hagree c
    refine ⟨(h c).1.trans ((Cert.ReferenceIdeal.Bridge.result0 m' c).trans ?_),
      (h c).2.1.trans ((Cert.ReferenceIdeal.Bridge.result1 m' c).trans ?_), (h c).2.2⟩
    · rw [e0, e1, e2, e3, e4, e5, e6]
    · rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
